-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x300 : Shape := ⟨2, ![100000, 300]⟩
abbrev S200000 : Shape := ⟨1, ![200000]⟩
abbrev S6x300 : Shape := ⟨2, ![6, 300]⟩
abbrev S300 : Shape := ⟨1, ![300]⟩
abbrev S3x300 : Shape := ⟨2, ![3, 300]⟩
abbrev S300x600 : Shape := ⟨2, ![300, 600]⟩
abbrev S600 : Shape := ⟨1, ![600]⟩
abbrev S600x300 : Shape := ⟨2, ![600, 300]⟩
abbrev S_ : Shape := ⟨0, ![]⟩

class Facts : Prop where
  bcast_S_S100000x300 : S_.BroadcastsInDim S100000x300 (![] : Fin 0 → Fin S100000x300.rank)
  reducesTo_S100000x300_S_d0_1 : S100000x300.ReducesTo [0, 1] S_
  h_S_ : 0 < S_.numel
  bcast_S_S6x300 : S_.BroadcastsInDim S6x300 (![] : Fin 0 → Fin S6x300.rank)
  reducesTo_S6x300_S_d0_1 : S6x300.ReducesTo [0, 1] S_
  bcast_S_S300 : S_.BroadcastsInDim S300 (![] : Fin 0 → Fin S300.rank)
  reducesTo_S300_S_d0 : S300.ReducesTo [0] S_
  bcast_S_S3x300 : S_.BroadcastsInDim S3x300 (![] : Fin 0 → Fin S3x300.rank)
  reducesTo_S3x300_S_d0_1 : S3x300.ReducesTo [0, 1] S_
  bcast_S_S300x600 : S_.BroadcastsInDim S300x600 (![] : Fin 0 → Fin S300x600.rank)
  reducesTo_S300x600_S_d0_1 : S300x600.ReducesTo [0, 1] S_
  bcast_S_S600 : S_.BroadcastsInDim S600 (![] : Fin 0 → Fin S600.rank)
  reducesTo_S600_S_d0 : S600.ReducesTo [0] S_
  bcast_S_S600x300 : S_.BroadcastsInDim S600x300 (![] : Fin 0 → Fin S600x300.rank)
  reducesTo_S600x300_S_d0_1 : S600x300.ReducesTo [0, 1] S_
  bcast_S_S200000 : S_.BroadcastsInDim S200000 (![] : Fin 0 → Fin S200000.rank)
  reducesTo_S200000_S_d0 : S200000.ReducesTo [0] S_

variable [Facts]

def fn_part4 {F : FTy → Type} [FloatOps F] (main_arg4 : IVec S200000 32) (main_v65 : IVec S_ 1) (main_v66 : IVec S200000 32) : IVec S_ 1 :=
  let main_v67 : IVec S200000 1 := cmpi .slt main_arg4 main_v66
  let main_c_27 : IVec S_ 1 := constantI S_ 1 1#1
  let main_v68 : IVec S_ 1 := (fun x v => Host.reduce IntOp.andi x v reducesTo_S200000_S_d0 h_S_) main_v67 main_c_27
  let main_v69 : IVec S_ 1 := andi main_v65 main_v68
  main_v69

def fn_part3 {F : FTy → Type} [FloatOps F] (main_arg3 : IVec S200000 32) (main_arg4 : IVec S200000 32) (main_v48 : IVec S_ 1) (main_v49 : FVec F S300 .f32) (main_v50 : FVec F S300 .f32) : IVec S_ 1 :=
  let main_v51 : IVec S300 1 := cmpf .olt main_v49 main_v50
  let main_c_19 : IVec S_ 1 := constantI S_ 1 1#1
  let main_v52 : IVec S_ 1 := (fun x v => Host.reduce IntOp.andi x v reducesTo_S300_S_d0 h_S_) main_v51 main_c_19
  let main_v53 : IVec S_ 1 := andi main_v48 main_v52
  let main_c_20 : IVec S_ 32 := constantI S_ 32 0#32
  let main_v54 : IVec S200000 32 := broadcastInDim S200000 ![] bcast_S_S200000 main_c_20
  let main_v55 : IVec S200000 1 := cmpi .sge main_arg3 main_v54
  let main_c_21 : IVec S_ 1 := constantI S_ 1 1#1
  let main_v56 : IVec S_ 1 := (fun x v => Host.reduce IntOp.andi x v reducesTo_S200000_S_d0 h_S_) main_v55 main_c_21
  let main_v57 : IVec S_ 1 := andi main_v53 main_v56
  let main_c_22 : IVec S_ 32 := constantI S_ 32 6#32
  let main_v58 : IVec S200000 32 := broadcastInDim S200000 ![] bcast_S_S200000 main_c_22
  let main_v59 : IVec S200000 1 := cmpi .slt main_arg3 main_v58
  let main_c_23 : IVec S_ 1 := constantI S_ 1 1#1
  let main_v60 : IVec S_ 1 := (fun x v => Host.reduce IntOp.andi x v reducesTo_S200000_S_d0 h_S_) main_v59 main_c_23
  let main_v61 : IVec S_ 1 := andi main_v57 main_v60
  let main_c_24 : IVec S_ 32 := constantI S_ 32 0#32
  let main_v62 : IVec S200000 32 := broadcastInDim S200000 ![] bcast_S_S200000 main_c_24
  let main_v63 : IVec S200000 1 := cmpi .sge main_arg4 main_v62
  let main_c_25 : IVec S_ 1 := constantI S_ 1 1#1
  let main_v64 : IVec S_ 1 := (fun x v => Host.reduce IntOp.andi x v reducesTo_S200000_S_d0 h_S_) main_v63 main_c_25
  let main_v65 : IVec S_ 1 := andi main_v61 main_v64
  let main_c_26 : IVec S_ 32 := constantI S_ 32 3#32
  let main_v66 : IVec S200000 32 := broadcastInDim S200000 ![] bcast_S_S200000 main_c_26
  fn_part4 (F := F) main_arg4 main_v65 main_v66

def fn_part2 {F : FTy → Type} [FloatOps F] (main_arg3 : IVec S200000 32) (main_arg4 : IVec S200000 32) (main_arg11 : FVec F S600x300 .f32) (main_arg12 : FVec F S300 .f32) (main_arg13 : FVec F S300 .f32) (main_arg14 : FVec F S300 .f32) (main_v33 : IVec S_ 1) : IVec S_ 1 :=
  let main_v34 : FVec F S600x300 .f32 := Host.absf main_arg11
  let main_cst_12 : FVec F S_ .f32 := constant S_ .f32 0x7F800000#32
  let main_v35 : FVec F S600x300 .f32 := broadcastInDim S600x300 ![] bcast_S_S600x300 main_cst_12
  let main_v36 : IVec S600x300 1 := cmpf .olt main_v34 main_v35
  let main_c_13 : IVec S_ 1 := constantI S_ 1 1#1
  let main_v37 : IVec S_ 1 := (fun x v => Host.reduce IntOp.andi x v reducesTo_S600x300_S_d0_1 h_S_) main_v36 main_c_13
  let main_v38 : IVec S_ 1 := andi main_v33 main_v37
  let main_v39 : FVec F S300 .f32 := Host.absf main_arg12
  let main_cst_14 : FVec F S_ .f32 := constant S_ .f32 0x7F800000#32
  let main_v40 : FVec F S300 .f32 := broadcastInDim S300 ![] bcast_S_S300 main_cst_14
  let main_v41 : IVec S300 1 := cmpf .olt main_v39 main_v40
  let main_c_15 : IVec S_ 1 := constantI S_ 1 1#1
  let main_v42 : IVec S_ 1 := (fun x v => Host.reduce IntOp.andi x v reducesTo_S300_S_d0 h_S_) main_v41 main_c_15
  let main_v43 : IVec S_ 1 := andi main_v38 main_v42
  let main_v44 : FVec F S300 .f32 := Host.absf main_arg13
  let main_cst_16 : FVec F S_ .f32 := constant S_ .f32 0x7F800000#32
  let main_v45 : FVec F S300 .f32 := broadcastInDim S300 ![] bcast_S_S300 main_cst_16
  let main_v46 : IVec S300 1 := cmpf .olt main_v44 main_v45
  let main_c_17 : IVec S_ 1 := constantI S_ 1 1#1
  let main_v47 : IVec S_ 1 := (fun x v => Host.reduce IntOp.andi x v reducesTo_S300_S_d0 h_S_) main_v46 main_c_17
  let main_v48 : IVec S_ 1 := andi main_v43 main_v47
  let main_v49 : FVec F S300 .f32 := Host.absf main_arg14
  let main_cst_18 : FVec F S_ .f32 := constant S_ .f32 0x7F800000#32
  let main_v50 : FVec F S300 .f32 := broadcastInDim S300 ![] bcast_S_S300 main_cst_18
  fn_part3 (F := F) main_arg3 main_arg4 main_v48 main_v49 main_v50

def fn_part1 {F : FTy → Type} [FloatOps F] (main_arg3 : IVec S200000 32) (main_arg4 : IVec S200000 32) (main_arg8 : FVec F S300 .f32) (main_arg9 : FVec F S300x600 .f32) (main_arg10 : FVec F S600 .f32) (main_arg11 : FVec F S600x300 .f32) (main_arg12 : FVec F S300 .f32) (main_arg13 : FVec F S300 .f32) (main_arg14 : FVec F S300 .f32) (main_v13 : IVec S_ 1) (main_v16 : IVec S3x300 1) : IVec S_ 1 :=
  let main_c_5 : IVec S_ 1 := constantI S_ 1 1#1
  let main_v17 : IVec S_ 1 := (fun x v => Host.reduce IntOp.andi x v reducesTo_S3x300_S_d0_1 h_S_) main_v16 main_c_5
  let main_v18 : IVec S_ 1 := andi main_v13 main_v17
  let main_v19 : FVec F S300 .f32 := Host.absf main_arg8
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  let main_v24 : FVec F S300x600 .f32 := Host.absf main_arg9
  let main_cst_8 : FVec F S_ .f32 := constant S_ .f32 0x7F800000#32
  let main_v25 : FVec F S300x600 .f32 := broadcastInDim S300x600 ![] bcast_S_S300x600 main_cst_8
  let main_v26 : IVec S300x600 1 := cmpf .olt main_v24 main_v25
  let main_c_9 : IVec S_ 1 := constantI S_ 1 1#1
  let main_v27 : IVec S_ 1 := (fun x v => Host.reduce IntOp.andi x v reducesTo_S300x600_S_d0_1 h_S_) main_v26 main_c_9
  let main_v28 : IVec S_ 1 := andi main_v23 main_v27
  let main_v29 : FVec F S600 .f32 := Host.absf main_arg10
  let main_cst_10 : FVec F S_ .f32 := constant S_ .f32 0x7F800000#32
  let main_v30 : FVec F S600 .f32 := broadcastInDim S600 ![] bcast_S_S600 main_cst_10
  let main_v31 : IVec S600 1 := cmpf .olt main_v29 main_v30
  let main_c_11 : IVec S_ 1 := constantI S_ 1 1#1
  let main_v32 : IVec S_ 1 := (fun x v => Host.reduce IntOp.andi x v reducesTo_S600_S_d0 h_S_) main_v31 main_c_11
  let main_v33 : IVec S_ 1 := andi main_v28 main_v32
  fn_part2 (F := F) main_arg3 main_arg4 main_arg11 main_arg12 main_arg13 main_arg14 main_v33

def fn {F : FTy → Type} [FloatOps F] (main_arg0 : FVec F S100000x300 .f32) (main_arg1 : IVec S200000 32) (main_arg2 : IVec S200000 32) (main_arg3 : IVec S200000 32) (main_arg4 : IVec S200000 32) (main_arg5 : FVec F S6x300 .f32) (main_arg6 : FVec F S300 .f32) (main_arg7 : FVec F S3x300 .f32) (main_arg8 : FVec F S300 .f32) (main_arg9 : FVec F S300x600 .f32) (main_arg10 : FVec F S600 .f32) (main_arg11 : FVec F S600x300 .f32) (main_arg12 : FVec F S300 .f32) (main_arg13 : FVec F S300 .f32) (main_arg14 : FVec F S300 .f32) : IVec S_ 1 :=
  let main_v0 : FVec F S100000x300 .f32 := Host.absf main_arg0
  let main_cst : FVec F S_ .f32 := constant S_ .f32 0x7F800000#32
  let main_v1 : FVec F S100000x300 .f32 := broadcastInDim S100000x300 ![] bcast_S_S100000x300 main_cst
  let main_v2 : IVec S100000x300 1 := cmpf .olt main_v0 main_v1
  let main_c : IVec S_ 1 := constantI S_ 1 1#1
  let main_v3 : IVec S_ 1 := (fun x v => Host.reduce IntOp.andi x v reducesTo_S100000x300_S_d0_1 h_S_) main_v2 main_c
  let main_v4 : FVec F S6x300 .f32 := Host.absf main_arg5
  let main_cst_0 : FVec F S_ .f32 := constant S_ .f32 0x7F800000#32
  let main_v5 : FVec F S6x300 .f32 := broadcastInDim S6x300 ![] bcast_S_S6x300 main_cst_0
  let main_v6 : IVec S6x300 1 := cmpf .olt main_v4 main_v5
  let main_c_1 : IVec S_ 1 := constantI S_ 1 1#1
  let main_v7 : IVec S_ 1 := (fun x v => Host.reduce IntOp.andi x v reducesTo_S6x300_S_d0_1 h_S_) main_v6 main_c_1
  let main_v8 : IVec S_ 1 := andi main_v3 main_v7
  let main_v9 : FVec F S300 .f32 := Host.absf main_arg6
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S3x300 .f32 := Host.absf main_arg7
  let main_cst_4 : FVec F S_ .f32 := constant S_ .f32 0x7F800000#32
  let main_v15 : FVec F S3x300 .f32 := broadcastInDim S3x300 ![] bcast_S_S3x300 main_cst_4
  let main_v16 : IVec S3x300 1 := cmpf .olt main_v14 main_v15
  fn_part1 (F := F) main_arg3 main_arg4 main_arg8 main_arg9 main_arg10 main_arg11 main_arg12 main_arg13 main_arg14 main_v13 main_v16
-- ==== Kernel.lean ====
abbrev S100000x300 : Shape := ⟨2, ![100000, 300]⟩
abbrev S200000 : Shape := ⟨1, ![200000]⟩
abbrev S6x300 : Shape := ⟨2, ![6, 300]⟩
abbrev S300 : Shape := ⟨1, ![300]⟩
abbrev S3x300 : Shape := ⟨2, ![3, 300]⟩
abbrev S300x600 : Shape := ⟨2, ![300, 600]⟩
abbrev S600 : Shape := ⟨1, ![600]⟩
abbrev S600x300 : Shape := ⟨2, ![600, 300]⟩
abbrev S6x1x300 : Shape := ⟨3, ![6, 1, 300]⟩
abbrev S1x3x300 : Shape := ⟨3, ![1, 3, 300]⟩
abbrev S6x3x300 : Shape := ⟨3, ![6, 3, 300]⟩
abbrev S1x1x300 : Shape := ⟨3, ![1, 1, 300]⟩
abbrev S18x300 : Shape := ⟨2, ![18, 300]⟩
abbrev S_ : Shape := ⟨0, ![]⟩
abbrev S200000x1 : Shape := ⟨2, ![200000, 1]⟩
abbrev S200000x300 : Shape := ⟨2, ![200000, 300]⟩
abbrev S1x600 : Shape := ⟨2, ![1, 600]⟩
abbrev S1x300 : Shape := ⟨2, ![1, 300]⟩
abbrev S2000x300 : Shape := ⟨2, ![2000, 300]⟩
abbrev S2000x600 : Shape := ⟨2, ![2000, 600]⟩
abbrev S4000x300 : Shape := ⟨2, ![4000, 300]⟩

abbrev nBuf : Space → Nat
  | .hbm => 86
  | .vmem => 16
  | .smem => 0
  | _ => 0

abbrev bufTy : (tb : Table) → Fin (tcTables nBuf tb) → BufTy
  | .hbm, ⟨0, _⟩ => ⟨S100000x300, .f32⟩
  | .hbm, ⟨1, _⟩ => ⟨S200000, .i32⟩
  | .hbm, ⟨2, _⟩ => ⟨S200000, .i32⟩
  | .hbm, ⟨3, _⟩ => ⟨S200000, .i32⟩
  | .hbm, ⟨4, _⟩ => ⟨S200000, .i32⟩
  | .hbm, ⟨5, _⟩ => ⟨S6x300, .f32⟩
  | .hbm, ⟨6, _⟩ => ⟨S300, .f32⟩
  | .hbm, ⟨7, _⟩ => ⟨S3x300, .f32⟩
  | .hbm, ⟨8, _⟩ => ⟨S300, .f32⟩
  | .hbm, ⟨9, _⟩ => ⟨S300x600, .f32⟩
  | .hbm, ⟨10, _⟩ => ⟨S600, .f32⟩
  | .hbm, ⟨11, _⟩ => ⟨S600x300, .f32⟩
  | .hbm, ⟨12, _⟩ => ⟨S300, .f32⟩
  | .hbm, ⟨13, _⟩ => ⟨S300, .f32⟩
  | .hbm, ⟨14, _⟩ => ⟨S300, .f32⟩
  | .hbm, ⟨15, _⟩ => ⟨S6x1x300, .f32⟩
  | .hbm, ⟨16, _⟩ => ⟨S1x3x300, .f32⟩
  | .hbm, ⟨17, _⟩ => ⟨S6x3x300, .f32⟩
  | .hbm, ⟨18, _⟩ => ⟨S6x3x300, .f32⟩
  | .hbm, ⟨19, _⟩ => ⟨S6x3x300, .f32⟩
  | .hbm, ⟨20, _⟩ => ⟨S1x1x300, .f32⟩
  | .hbm, ⟨21, _⟩ => ⟨S6x3x300, .f32⟩
  | .hbm, ⟨22, _⟩ => ⟨S6x3x300, .f32⟩
  | .hbm, ⟨23, _⟩ => ⟨S1x1x300, .f32⟩
  | .hbm, ⟨24, _⟩ => ⟨S6x3x300, .f32⟩
  | .hbm, ⟨25, _⟩ => ⟨S6x3x300, .f32⟩
  | .hbm, ⟨26, _⟩ => ⟨S18x300, .f32⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S200000, .i32⟩
  | .hbm, ⟨35, _⟩ => ⟨S200000, .i32⟩
  | .hbm, ⟨36, _⟩ => ⟨S_, .i32⟩
  | .hbm, ⟨37, _⟩ => ⟨S200000, .i32⟩
  | .hbm, ⟨38, _⟩ => ⟨S200000, .i32⟩
  | .hbm, ⟨39, _⟩ => ⟨S_, .i32⟩
  | .hbm, ⟨40, _⟩ => ⟨S200000, .i32⟩
  | .hbm, ⟨41, _⟩ => ⟨S200000, .i1⟩
  | .hbm, ⟨42, _⟩ => ⟨S_, .i32⟩
  | .hbm, ⟨43, _⟩ => ⟨S200000, .i32⟩
  | .hbm, ⟨44, _⟩ => ⟨S200000, .i32⟩
  | .hbm, ⟨45, _⟩ => ⟨S200000, .i32⟩
  | .hbm, ⟨46, _⟩ => ⟨S200000x1, .i32⟩
  | .hbm, ⟨47, _⟩ => ⟨S200000x300, .f32⟩
  | .hbm, ⟨48, _⟩ => ⟨S_, .i32⟩
  | .hbm, ⟨49, _⟩ => ⟨S200000, .i32⟩
  | .hbm, ⟨50, _⟩ => ⟨S200000, .i1⟩
  | .hbm, ⟨51, _⟩ => ⟨S_, .i32⟩
  | .hbm, ⟨52, _⟩ => ⟨S200000, .i32⟩
  | .hbm, ⟨53, _⟩ => ⟨S200000, .i32⟩
  | .hbm, ⟨54, _⟩ => ⟨S200000, .i32⟩
  | .hbm, ⟨55, _⟩ => ⟨S200000x1, .i32⟩
  | .hbm, ⟨56, _⟩ => ⟨S200000x300, .f32⟩
  | .hbm, ⟨57, _⟩ => ⟨S200000x300, .f32⟩
  | .hbm, ⟨58, _⟩ => ⟨S_, .f32⟩
  | .hbm, ⟨59, _⟩ => ⟨S100000x300, .f32⟩
  | .hbm, ⟨60, _⟩ => ⟨S200000x1, .i32⟩
  | .hbm, ⟨61, _⟩ => ⟨S100000x300, .f32⟩
  | .hbm, ⟨62, _⟩ => ⟨S1x600, .f32⟩
  | .hbm, ⟨63, _⟩ => ⟨S1x300, .f32⟩
  | .hbm, ⟨64, _⟩ => ⟨S100000x300, .f32⟩
  | .hbm, ⟨65, _⟩ => ⟨S_, .f32⟩
  | .hbm, ⟨66, _⟩ => ⟨S300, .f32⟩
  | .hbm, ⟨67, _⟩ => ⟨S100000x300, .f32⟩
  | .hbm, ⟨68, _⟩ => ⟨S_, .f32⟩
  | .hbm, ⟨69, _⟩ => ⟨S300, .f32⟩
  | .hbm, ⟨70, _⟩ => ⟨S_, .f32⟩
  | .hbm, ⟨71, _⟩ => ⟨S300, .f32⟩
  | .hbm, ⟨72, _⟩ => ⟨S300, .f32⟩
  | .hbm, ⟨73, _⟩ => ⟨S_, .f32⟩
  | .hbm, ⟨74, _⟩ => ⟨S300, .f32⟩
  | .hbm, ⟨75, _⟩ => ⟨S300, .f32⟩
  | .hbm, ⟨76, _⟩ => ⟨S300, .f32⟩
  | .hbm, ⟨77, _⟩ => ⟨S300, .f32⟩
  | .hbm, ⟨78, _⟩ => ⟨S_, .f32⟩
  | .hbm, ⟨79, _⟩ => ⟨S300, .f32⟩
  | .hbm, ⟨80, _⟩ => ⟨S300, .f32⟩
  | .hbm, ⟨81, _⟩ => ⟨S1x300, .f32⟩
  | .hbm, ⟨82, _⟩ => ⟨S1x300, .f32⟩
  | .hbm, ⟨83, _⟩ => ⟨S1x300, .f32⟩
  | .hbm, ⟨84, _⟩ => ⟨S1x300, .f32⟩
  | .hbm, ⟨85, _⟩ => ⟨S100000x300, .f32⟩
  | .local _ .vmem, ⟨0, _⟩ => ⟨S2000x300, .f32⟩
  | .local _ .vmem, ⟨1, _⟩ => ⟨S2000x300, .f32⟩
  | .local _ .vmem, ⟨2, _⟩ => ⟨S300x600, .f32⟩
  | .local _ .vmem, ⟨3, _⟩ => ⟨S1x600, .f32⟩
  | .local _ .vmem, ⟨4, _⟩ => ⟨S600x300, .f32⟩
  | .local _ .vmem, ⟨5, _⟩ => ⟨S1x300, .f32⟩
  | .local _ .vmem, ⟨6, _⟩ => ⟨S2000x300, .f32⟩
  | .local _ .vmem, ⟨7, _⟩ => ⟨S2000x300, .f32⟩
  | .local _ .vmem, ⟨8, _⟩ => ⟨S4000x300, .f32⟩
  | .local _ .vmem, ⟨9, _⟩ => ⟨S4000x300, .f32⟩
  | .local _ .vmem, ⟨10, _⟩ => ⟨S1x300, .f32⟩
  | .local _ .vmem, ⟨11, _⟩ => ⟨S1x300, .f32⟩
  | .local _ .vmem, ⟨12, _⟩ => ⟨S1x300, .f32⟩
  | .local _ .vmem, ⟨13, _⟩ => ⟨S1x300, .f32⟩
  | .local _ .vmem, ⟨14, _⟩ => ⟨S4000x300, .f32⟩
  | .local _ .vmem, ⟨15, _⟩ => ⟨S4000x300, .f32⟩
  | _, _ => ⟨S100000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_0 : Ref sig .tc := ⟨.hbm, 31, rfl⟩
abbrev main_c_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v15 : Ref sig .tc := ⟨.hbm, 38, rfl⟩
abbrev main_c_2 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S600x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x300 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x300 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S6x300_S6x1x300_0_2 : S6x300.BroadcastsInDim S6x1x300 (![0, 2] : Fin 2 → Fin S6x1x300.rank)
  bcast_S3x300_S1x3x300_1_2 : S3x300.BroadcastsInDim S1x3x300 (![1, 2] : Fin 2 → Fin S1x3x300.rank)
  bcast_S6x1x300_S6x3x300_0_1_2 : S6x1x300.BroadcastsInDim S6x3x300 (![0, 1, 2] : Fin 3 → Fin S6x3x300.rank)
  bcast_S1x3x300_S6x3x300_0_1_2 : S1x3x300.BroadcastsInDim S6x3x300 (![0, 1, 2] : Fin 3 → Fin S6x3x300.rank)
  bcast_S300_S1x1x300_2 : S300.BroadcastsInDim S1x1x300 (![2] : Fin 1 → Fin S1x1x300.rank)
  bcast_S1x1x300_S6x3x300_0_1_2 : S1x1x300.BroadcastsInDim S6x3x300 (![0, 1, 2] : Fin 3 → Fin S6x3x300.rank)
  shapeCasts_S6x3x300_S18x300 : S6x3x300.ShapeCasts S18x300
  bcast_S_S200000 : S_.BroadcastsInDim S200000 (![] : Fin 0 → Fin S200000.rank)
  bcast_S200000_S200000x1_0 : S200000.BroadcastsInDim S200000x1 (![0] : Fin 1 → Fin S200000x1.rank)
  bcast_S_S100000x300 : S_.BroadcastsInDim S100000x300 (![] : Fin 0 → Fin S100000x300.rank)
  shapeCasts_S600_S1x600 : S600.ShapeCasts S1x600
  shapeCasts_S300_S1x300 : S300.ShapeCasts S1x300
  inb_S2000x300_S2000x300_0_0 : ∀ a, (![0, 0] : Fin 2 → Nat) a + S2000x300.size a ≤ S2000x300.size a
  h_S2000x300 : 0 < S2000x300.numel
  shapeCasts_S2000x300_S2000x300 : S2000x300.ShapeCasts S2000x300
  bitsLt_bf16_f32 : FTy.bits .bf16 < FTy.bits .f32
  inb_S300x600_S300x600_0_0 : ∀ a, (![0, 0] : Fin 2 → Nat) a + S300x600.size a ≤ S300x600.size a
  h_S300x600 : 0 < S300x600.numel
  inb_S1x600_S1x600_0_0 : ∀ a, (![0, 0] : Fin 2 → Nat) a + S1x600.size a ≤ S1x600.size a
  h_S1x600 : 0 < S1x600.numel
  shapeCasts_S1x600_S1x600 : S1x600.ShapeCasts S1x600
  broadcasts_S1x600_S2000x600 : S1x600.Broadcasts S2000x600
  inb_S600x300_S600x300_0_0 : ∀ a, (![0, 0] : Fin 2 → Nat) a + S600x300.size a ≤ S600x300.size a
  h_S600x300 : 0 < S600x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  reducesTo_S100000x300_S300_d0 : S100000x300.ReducesTo [0] S300
  h_S_ : 0 < S_.numel
  bcast_S_S300 : S_.BroadcastsInDim S300 (![] : Fin 0 → Fin S300.rank)
  inb_S4000x300_S4000x300_0_0 : ∀ a, (![0, 0] : Fin 2 → Nat) a + S4000x300.size a ≤ S4000x300.size a
  h_S4000x300 : 0 < S4000x300.numel
  shapeCasts_S4000x300_S4000x300 : S4000x300.ShapeCasts S4000x300
  broadcasts_S1x300_S4000x300 : S1x300.Broadcasts S4000x300
  gather_S18x300_S200000x1_S200000x300_1_0_n_n_0_1_1300_wf : GatherDims.WF S18x300 S200000x1 S200000x300 [1] [0] [] [0] [] 1 ![1, 300]
  gather_S100000x300_S200000x1_S200000x300_1_0_n_n_0_1_1300_wf : GatherDims.WF S100000x300 S200000x1 S200000x300 [1] [0] [] [0] [] 1 ![1, 300]
  scatter_S100000x300_S200000x1_S200000x300_1_0_0_1_wf : ScatterDims.WF S100000x300 S200000x1 S200000x300 [1] [0] [0] 1
  dot_S2000x300_S300x600_S2000x600_1_0_0_1_n_n_wf : DotDims.WF S2000x300 S300x600 S2000x600 [1] [0] [0] [1] [] []
  dot_S2000x600_S600x300_S2000x300_1_0_0_1_n_n_wf : DotDims.WF S2000x600 S600x300 S2000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x300.size a ≤ S100000x300.size a
  hwx0_0 : ∀ i : grid0.Coords, EltTy.bits .f32 = 32 ∨ (Rect.block (s := S100000x300) S2000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x600.size a ≤ S300x600.size a
  hwx0_1 : ∀ i : grid0.Coords, EltTy.bits .f32 = 32 ∨ (Rect.block (s := S300x600) S300x600.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x600.size a ≤ S1x600.size a
  hwx0_2 : ∀ i : grid0.Coords, EltTy.bits .f32 = 32 ∨ (Rect.block (s := S1x600) S1x600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S600x300.size a ≤ S600x300.size a
  hwx0_3 : ∀ i : grid0.Coords, EltTy.bits .f32 = 32 ∨ (Rect.block (s := S600x300) S600x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x300.size a ≤ S100000x300.size a
  hwx0_5 : ∀ i : grid0.Coords, EltTy.bits .f32 = 32 ∨ (Rect.block (s := S100000x300) S2000x300.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x300.size a ≤ S100000x300.size a
  hwx1_0 : ∀ i : grid1.Coords, EltTy.bits .f32 = 32 ∨ (Rect.block (s := S100000x300) S4000x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x300.size a ≤ S1x300.size a
  hwx1_1 : ∀ i : grid1.Coords, EltTy.bits .f32 = 32 ∨ (Rect.block (s := S1x300) S1x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x300.size a ≤ S1x300.size a
  hwx1_2 : ∀ i : grid1.Coords, EltTy.bits .f32 = 32 ∨ (Rect.block (s := S1x300) S1x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x300.size a ≤ S1x300.size a
  hwx1_3 : ∀ i : grid1.Coords, EltTy.bits .f32 = 32 ∨ (Rect.block (s := S1x300) S1x300.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x300.size a ≤ S1x300.size a
  hwx1_4 : ∀ i : grid1.Coords, EltTy.bits .f32 = 32 ∨ (Rect.block (s := S1x300) S1x300.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x300.size a ≤ S100000x300.size a
  hwx1_5 : ∀ i : grid1.Coords, EltTy.bits .f32 = 32 ∨ (Rect.block (s := S100000x300) S4000x300.size (cc1_transform_5 i) (hinb1_5 i)).WholeWords (EltTy.packing .f32)

variable [Facts₀]

def gather_S18x300_S200000x1_S200000x300_1_0_n_n_0_1_1300 : GatherDims S18x300 S200000x1 S200000x300 where
  offsetDims := [1]
  collapsedSliceDims := [0]
  operandBatchingDims := []
  startIndicesBatchingDims := []
  startIndexMap := [0]
  indexVectorDim := 1
  sliceSizes := ![1, 300]
  wf := gather_S18x300_S200000x1_S200000x300_1_0_n_n_0_1_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def scatter_S100000x300_S200000x1_S200000x300_1_0_0_1 : ScatterDims S100000x300 S200000x1 S200000x300 where
  updateWindowDims := [1]
  insertedWindowDims := [0]
  scatterDimsToOperandDims := [0]
  indexVectorDim := 1
  wf := scatter_S100000x300_S200000x1_S200000x300_1_0_0_1_wf
def dot_S2000x300_S300x600_S2000x600_1_0_0_1_n_n : DotDims S2000x300 S300x600 S2000x600 where
  lhsContracting := [1]
  rhsContracting := [0]
  lhsNonContracting := [0]
  rhsNonContracting := [1]
  lhsBatch := []
  rhsBatch := []
  wf := dot_S2000x300_S300x600_S2000x600_1_0_0_1_n_n_wf
def dot_S2000x600_S600x300_S2000x300_1_0_0_1_n_n : DotDims S2000x600 S600x300 S2000x300 where
  lhsContracting := [1]
  rhsContracting := [0]
  lhsNonContracting := [0]
  rhsNonContracting := [1]
  lhsBatch := []
  rhsBatch := []
  wf := dot_S2000x600_S600x300_S2000x300_1_0_0_1_n_n_wf

abbrev win0_0 : Pipeline.Window sig grid0 :=
  Pipeline.Window.ofSpec (Memref.whole main_v33) S2000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S300x600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S600x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S2000x300.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S4000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S4000x300.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x300 : Shape := ⟨2, ![100000, 300]⟩
abbrev S200000 : Shape := ⟨1, ![200000]⟩
abbrev S6x300 : Shape := ⟨2, ![6, 300]⟩
abbrev S300 : Shape := ⟨1, ![300]⟩
abbrev S3x300 : Shape := ⟨2, ![3, 300]⟩
abbrev S300x600 : Shape := ⟨2, ![300, 600]⟩
abbrev S600 : Shape := ⟨1, ![600]⟩
abbrev S600x300 : Shape := ⟨2, ![600, 300]⟩
abbrev S_ : Shape := ⟨0, ![]⟩
abbrev S200000x1 : Shape := ⟨2, ![200000, 1]⟩
abbrev S200000x300 : Shape := ⟨2, ![200000, 300]⟩
abbrev S1x300 : Shape := ⟨2, ![1, 300]⟩
abbrev S100000x600 : Shape := ⟨2, ![100000, 600]⟩
abbrev S1x600 : Shape := ⟨2, ![1, 600]⟩

abbrev nBuf : Space → Nat
  | .hbm => 109
  | .vmem => 0
  | .smem => 0
  | _ => 0

abbrev bufTy : (tb : Table) → Fin (tcTables nBuf tb) → BufTy
  | .hbm, ⟨0, _⟩ => ⟨S100000x300, .f32⟩
  | .hbm, ⟨1, _⟩ => ⟨S200000, .i32⟩
  | .hbm, ⟨2, _⟩ => ⟨S200000, .i32⟩
  | .hbm, ⟨3, _⟩ => ⟨S200000, .i32⟩
  | .hbm, ⟨4, _⟩ => ⟨S200000, .i32⟩
  | .hbm, ⟨5, _⟩ => ⟨S6x300, .f32⟩
  | .hbm, ⟨6, _⟩ => ⟨S300, .f32⟩
  | .hbm, ⟨7, _⟩ => ⟨S3x300, .f32⟩
  | .hbm, ⟨8, _⟩ => ⟨S300, .f32⟩
  | .hbm, ⟨9, _⟩ => ⟨S300x600, .f32⟩
  | .hbm, ⟨10, _⟩ => ⟨S600, .f32⟩
  | .hbm, ⟨11, _⟩ => ⟨S600x300, .f32⟩
  | .hbm, ⟨12, _⟩ => ⟨S300, .f32⟩
  | .hbm, ⟨13, _⟩ => ⟨S300, .f32⟩
  | .hbm, ⟨14, _⟩ => ⟨S300, .f32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S200000x300, .f32⟩
  | .hbm, ⟨24, _⟩ => ⟨S1x300, .f32⟩
  | .hbm, ⟨25, _⟩ => ⟨S200000x300, .f32⟩
  | .hbm, ⟨26, _⟩ => ⟨S200000x300, .f32⟩
  | .hbm, ⟨27, _⟩ => ⟨S_, .i32⟩
  | .hbm, ⟨28, _⟩ => ⟨S200000, .i32⟩
  | .hbm, ⟨29, _⟩ => ⟨S200000, .i1⟩
  | .hbm, ⟨30, _⟩ => ⟨S_, .i32⟩
  | .hbm, ⟨31, _⟩ => ⟨S200000, .i32⟩
  | .hbm, ⟨32, _⟩ => ⟨S200000, .i32⟩
  | .hbm, ⟨33, _⟩ => ⟨S200000, .i32⟩
  | .hbm, ⟨34, _⟩ => ⟨S200000x1, .i32⟩
  | .hbm, ⟨35, _⟩ => ⟨S200000x300, .f32⟩
  | .hbm, ⟨36, _⟩ => ⟨S1x300, .f32⟩
  | .hbm, ⟨37, _⟩ => ⟨S200000x300, .f32⟩
  | .hbm, ⟨38, _⟩ => ⟨S200000x300, .f32⟩
  | .hbm, ⟨39, _⟩ => ⟨S200000x300, .f32⟩
  | .hbm, ⟨40, _⟩ => ⟨S_, .i32⟩
  | .hbm, ⟨41, _⟩ => ⟨S200000, .i32⟩
  | .hbm, ⟨42, _⟩ => ⟨S200000, .i1⟩
  | .hbm, ⟨43, _⟩ => ⟨S_, .i32⟩
  | .hbm, ⟨44, _⟩ => ⟨S200000, .i32⟩
  | .hbm, ⟨45, _⟩ => ⟨S200000, .i32⟩
  | .hbm, ⟨46, _⟩ => ⟨S200000, .i32⟩
  | .hbm, ⟨47, _⟩ => ⟨S200000x1, .i32⟩
  | .hbm, ⟨48, _⟩ => ⟨S200000x300, .f32⟩
  | .hbm, ⟨49, _⟩ => ⟨S200000x300, .f32⟩
  | .hbm, ⟨50, _⟩ => ⟨S_, .f32⟩
  | .hbm, ⟨51, _⟩ => ⟨S100000x300, .f32⟩
  | .hbm, ⟨52, _⟩ => ⟨S200000x1, .i32⟩
  | .hbm, ⟨53, _⟩ => ⟨S100000x300, .f32⟩
  | .hbm, ⟨54, _⟩ => ⟨S100000x600, .f32⟩
  | .hbm, ⟨55, _⟩ => ⟨S1x600, .f32⟩
  | .hbm, ⟨56, _⟩ => ⟨S100000x600, .f32⟩
  | .hbm, ⟨57, _⟩ => ⟨S100000x600, .f32⟩
  | .hbm, ⟨58, _⟩ => ⟨S_, .f32⟩
  | .hbm, ⟨59, _⟩ => ⟨S100000x600, .f32⟩
  | .hbm, ⟨60, _⟩ => ⟨S100000x600, .f32⟩
  | .hbm, ⟨61, _⟩ => ⟨S100000x300, .f32⟩
  | .hbm, ⟨62, _⟩ => ⟨S1x300, .f32⟩
  | .hbm, ⟨63, _⟩ => ⟨S100000x300, .f32⟩
  | .hbm, ⟨64, _⟩ => ⟨S100000x300, .f32⟩
  | .hbm, ⟨65, _⟩ => ⟨S_, .f32⟩
  | .hbm, ⟨66, _⟩ => ⟨S300, .f32⟩
  | .hbm, ⟨67, _⟩ => ⟨S_, .f32⟩
  | .hbm, ⟨68, _⟩ => ⟨S300, .f32⟩
  | .hbm, ⟨69, _⟩ => ⟨S300, .f32⟩
  | .hbm, ⟨70, _⟩ => ⟨S_, .i32⟩
  | .hbm, ⟨71, _⟩ => ⟨S_, .f32⟩
  | .hbm, ⟨72, _⟩ => ⟨S300, .f32⟩
  | .hbm, ⟨73, _⟩ => ⟨S1x300, .f32⟩
  | .hbm, ⟨74, _⟩ => ⟨S_, .f32⟩
  | .hbm, ⟨75, _⟩ => ⟨S1x300, .f32⟩
  | .hbm, ⟨76, _⟩ => ⟨S1x300, .f32⟩
  | .hbm, ⟨77, _⟩ => ⟨S100000x300, .f32⟩
  | .hbm, ⟨78, _⟩ => ⟨S100000x300, .f32⟩
  | .hbm, ⟨79, _⟩ => ⟨S100000x300, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S300, .f32⟩
  | .hbm, ⟨85, _⟩ => ⟨S300, .f32⟩
  | .hbm, ⟨86, _⟩ => ⟨S300, .f32⟩
  | .hbm, ⟨87, _⟩ => ⟨S_, .f32⟩
  | .hbm, ⟨88, _⟩ => ⟨S_, .i1⟩
  | .hbm, ⟨89, _⟩ => ⟨S_, .f32⟩
  | .hbm, ⟨90, _⟩ => ⟨S_, .f32⟩
  | .hbm, ⟨91, _⟩ => ⟨S300, .f32⟩
  | .hbm, ⟨92, _⟩ => ⟨S300, .f32⟩
  | .hbm, ⟨93, _⟩ => ⟨S1x300, .f32⟩
  | .hbm, ⟨94, _⟩ => ⟨S100000x300, .f32⟩
  | .hbm, ⟨95, _⟩ => ⟨S100000x300, .f32⟩
  | .hbm, ⟨96, _⟩ => ⟨S_, .f32⟩
  | .hbm, ⟨97, _⟩ => ⟨S300, .f32⟩
  | .hbm, ⟨98, _⟩ => ⟨S300, .f32⟩
  | .hbm, ⟨99, _⟩ => ⟨S300, .f32⟩
  | .hbm, ⟨100, _⟩ => ⟨S1x300, .f32⟩
  | .hbm, ⟨101, _⟩ => ⟨S100000x300, .f32⟩
  | .hbm, ⟨102, _⟩ => ⟨S100000x300, .f32⟩
  | .hbm, ⟨103, _⟩ => ⟨S1x300, .f32⟩
  | .hbm, ⟨104, _⟩ => ⟨S100000x300, .f32⟩
  | .hbm, ⟨105, _⟩ => ⟨S100000x300, .f32⟩
  | .hbm, ⟨106, _⟩ => ⟨S1x300, .f32⟩
  | .hbm, ⟨107, _⟩ => ⟨S100000x300, .f32⟩
  | .hbm, ⟨108, _⟩ => ⟨S100000x300, .f32⟩
  | _, _ => ⟨S100000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call0_cst : Ref sig .tc := ⟨.hbm, 58, rfl⟩
abbrev main_call0_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_c_7 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_cst_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_cst_1 : Ref sig .tc := ⟨.hbm, 81, rfl⟩
abbrev main_call1_v8 : Ref sig .tc := ⟨.hbm, 82, rfl⟩
abbrev main_call1_cst_2 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_cst_3 : Ref sig .tc := ⟨.hbm, 87, rfl⟩
abbrev main_call1_v12 : Ref sig .tc := ⟨.hbm, 88, rfl⟩
abbrev main_call1_cst_4 : Ref sig .tc := ⟨.hbm, 89, rfl⟩
abbrev main_call1_call0_v0 : Ref sig .tc := ⟨.hbm, 90, rfl⟩
abbrev main_call1_call0_v1 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_8 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S300_S1x300_1 : S300.BroadcastsInDim S1x300 (![1] : Fin 1 → Fin S1x300.rank)
  bcast_S1x300_S200000x300_0_1 : S1x300.BroadcastsInDim S200000x300 (![0, 1] : Fin 2 → Fin S200000x300.rank)
  bcast_S_S100000x300 : S_.BroadcastsInDim S100000x300 (![] : Fin 0 → Fin S100000x300.rank)
  bcast_S600_S1x600_1 : S600.BroadcastsInDim S1x600 (![1] : Fin 1 → Fin S1x600.rank)
  bcast_S1x600_S100000x600_0_1 : S1x600.BroadcastsInDim S100000x600 (![0, 1] : Fin 2 → Fin S100000x600.rank)
  bcast_S_S100000x600 : S_.BroadcastsInDim S100000x600 (![] : Fin 0 → Fin S100000x600.rank)
  bcast_S1x300_S100000x300_0_1 : S1x300.BroadcastsInDim S100000x300 (![0, 1] : Fin 2 → Fin S100000x300.rank)
  reducesTo_S100000x300_S300_d0 : S100000x300.ReducesTo [0] S300
  h_S_ : 0 < S_.numel
  bcast_S_S300 : S_.BroadcastsInDim S300 (![] : Fin 0 → Fin S300.rank)
  bcast_S_S1x300 : S_.BroadcastsInDim S1x300 (![] : Fin 0 → Fin S1x300.rank)
  gather_S6x300_S200000x1_S200000x300_1_0_n_n_0_1_1300_wf : GatherDims.WF S6x300 S200000x1 S200000x300 [1] [0] [] [0] [] 1 ![1, 300]
  gather_S3x300_S200000x1_S200000x300_1_0_n_n_0_1_1300_wf : GatherDims.WF S3x300 S200000x1 S200000x300 [1] [0] [] [0] [] 1 ![1, 300]
  gather_S100000x300_S200000x1_S200000x300_1_0_n_n_0_1_1300_wf : GatherDims.WF S100000x300 S200000x1 S200000x300 [1] [0] [] [0] [] 1 ![1, 300]
  scatter_S100000x300_S200000x1_S200000x300_1_0_0_1_wf : ScatterDims.WF S100000x300 S200000x1 S200000x300 [1] [0] [0] 1
  dot_S100000x300_S300x600_S100000x600_1_0_0_1_n_n_wf : DotDims.WF S100000x300 S300x600 S100000x600 [1] [0] [0] [1] [] []
  dot_S100000x600_S600x300_S100000x300_1_0_0_1_n_n_wf : DotDims.WF S100000x600 S600x300 S100000x300 [1] [0] [0] [1] [] []

variable [Facts₀]

def gather_S6x300_S200000x1_S200000x300_1_0_n_n_0_1_1300 : GatherDims S6x300 S200000x1 S200000x300 where
  offsetDims := [1]
  collapsedSliceDims := [0]
  operandBatchingDims := []
  startIndicesBatchingDims := []
  startIndexMap := [0]
  indexVectorDim := 1
  sliceSizes := ![1, 300]
  wf := gather_S6x300_S200000x1_S200000x300_1_0_n_n_0_1_1300_wf
def gather_S3x300_S200000x1_S200000x300_1_0_n_n_0_1_1300 : GatherDims S3x300 S200000x1 S200000x300 where
  offsetDims := [1]
  collapsedSliceDims := [0]
  operandBatchingDims := []
  startIndicesBatchingDims := []
  startIndexMap := [0]
  indexVectorDim := 1
  sliceSizes := ![1, 300]
  wf := gather_S3x300_S200000x1_S200000x300_1_0_n_n_0_1_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def scatter_S100000x300_S200000x1_S200000x300_1_0_0_1 : ScatterDims S100000x300 S200000x1 S200000x300 where
  updateWindowDims := [1]
  insertedWindowDims := [0]
  scatterDimsToOperandDims := [0]
  indexVectorDim := 1
  wf := scatter_S100000x300_S200000x1_S200000x300_1_0_0_1_wf
def dot_S100000x300_S300x600_S100000x600_1_0_0_1_n_n : DotDims S100000x300 S300x600 S100000x600 where
  lhsContracting := [1]
  rhsContracting := [0]
  lhsNonContracting := [0]
  rhsNonContracting := [1]
  lhsBatch := []
  rhsBatch := []
  wf := dot_S100000x300_S300x600_S100000x600_1_0_0_1_n_n_wf
def dot_S100000x600_S600x300_S100000x300_1_0_0_1_n_n : DotDims S100000x600 S600x300 S100000x300 where
  lhsContracting := [1]
  rhsContracting := [0]
  lhsNonContracting := [0]
  rhsNonContracting := [1]
  lhsBatch := []
  rhsBatch := []
  wf := dot_S100000x600_S600x300_S100000x300_1_0_0_1_n_n_wf

class Facts : Prop extends Facts₀ where

variable [Facts]
-- ==== Proof.Spec.lean ====
/-
  The mathematics both programs compute, index by index over the extended reals.

  A node's aggregated message row `agg[r, ·]` goes through a two-layer perceptron
  `h[r, q] = Σ_{k₂} max(Σ_{k₁} agg[r, k₁]·M₁[k₁, k₂] + c₁[k₂], 0)·M₂[k₂, q] + c₂[q]`
  and every column of `h` is then normalised with that column's mean and variance:
  `out[r, j] = (h[r, j] − mean[j])·(var[j] + ε)^(−1/2)·γ[j] + β[j]`.
  `IsReal v` says every entry of `v` is a real number (neither infinity).
-/
import Idealize.ShloMosaic.PureOps.Ideal
import Idealize.ShloMosaic.Lib.ValueIdx

noncomputable section

namespace Cert.Spec

open Idealize.ShloMosaic Idealize.ShloMosaic.ValueIdx

/-- Every entry is a real number. -/
def IsReal {ι : Type} (v : ι → EReal) : Prop := ∀ i, ∃ r : ℝ, v i = (r : EReal)

/-- The hidden layer at node `r`, hidden unit `k₂`: the rectified affine image of the node's row. -/
def hidden (agg : FVec Ideal ⟨2, ![100000, 300]⟩ .f32) (M1 : FVec Ideal ⟨2, ![300, 600]⟩ .f32)
    (c1 : FVec Ideal ⟨1, ![600]⟩ .f32) (r : Fin 100000) (k2 : Fin 600) : EReal :=
  max ((∑ k1 : Fin 300, agg (ix2 r k1) * M1 (ix2 k1 k2)) + c1 (ix1 k2)) 0

/-- The two-layer perceptron applied to every row. -/
def mlp (agg : FVec Ideal ⟨2, ![100000, 300]⟩ .f32) (M1 : FVec Ideal ⟨2, ![300, 600]⟩ .f32)
    (c1 : FVec Ideal ⟨1, ![600]⟩ .f32) (M2 : FVec Ideal ⟨2, ![600, 300]⟩ .f32) (c2 : FVec Ideal ⟨1, ![300]⟩ .f32) :
    FVec Ideal ⟨2, ![100000, 300]⟩ .f32 :=
  fun i => (∑ k2 : Fin 600, hidden agg M1 c1 (i 0) k2 * M2 (ix2 k2 (i 1))) + c2 (ix1 (i 1))

/-- The stabiliser added to the variance: the single-precision number nearest 10⁻⁵, the same word in both programs. -/
def eps : EReal := Ideal.ofBits .f32 0x3727C5AC#32

/-- Column-wise normalisation with a given mean and variance per column, then scale and shift. -/
def bn (h : FVec Ideal ⟨2, ![100000, 300]⟩ .f32) (mean var γ β : FVec Ideal ⟨1, ![300]⟩ .f32) :
    FVec Ideal ⟨2, ![100000, 300]⟩ .f32 :=
  fun i => ((h i - mean (ix1 (i 1))) * Ideal.rsqrt (var (ix1 (i 1)) + eps)) * γ (ix1 (i 1)) + β (ix1 (i 1))

end Cert.Spec

end
-- ==== Proof.KTerms.lean ====
/-
  The kernel program's host stages as functions of their operands, each the composition the program's
  statements spell: the eighteen-row table of summed embeddings and the row picked per edge, the messages
  summed onto their destination nodes, the column mean and the one-pass variance (mean of squares minus
  squared mean, cut off at zero), and the whole result over the index-by-index specification.
-/
import proofs.«428974_j8160437862943_3_alg».proof.KernelIdeal
import proofs.«428974_j8160437862943_3_alg».proof.Proof.Spec

noncomputable section

namespace Cert.KernelIdeal.KT

open Idealize.ShloMosaic Cert.KernelIdeal

variable {F : FTy → Type} [FloatOps F] [Facts]
open Facts₀ Facts

/-- Row `3a + b` is `W0[a] + W1[b] + B0 + B1`. -/
def table (W0 : FVec F S6x300 .f32) (B0 : FVec F S300 .f32) (W1 : FVec F S3x300 .f32) (B1 : FVec F S300 .f32) :
    FVec F S18x300 .f32 :=
  shapeCast S18x300
    (addf (addf (addf (broadcastInDim S6x3x300 ![0, 1, 2] bcast_S6x1x300_S6x3x300_0_1_2 (broadcastInDim S6x1x300 ![0, 2] bcast_S6x300_S6x1x300_0_2 W0))
                      (broadcastInDim S6x3x300 ![0, 1, 2] bcast_S1x3x300_S6x3x300_0_1_2 (broadcastInDim S1x3x300 ![1, 2] bcast_S3x300_S1x3x300_1_2 W1)))
                (broadcastInDim S6x3x300 ![0, 1, 2] bcast_S1x1x300_S6x3x300_0_1_2 (broadcastInDim S1x1x300 ![2] bcast_S300_S1x1x300_2 B0)))
          (broadcastInDim S6x3x300 ![0, 1, 2] bcast_S1x1x300_S6x3x300_0_1_2 (broadcastInDim S1x1x300 ![2] bcast_S300_S1x1x300_2 B1)))
    shapeCasts_S6x3x300_S18x300

/-- `3·ef0 + ef1` cut to `[0, 17]`. -/
def clipIdx (ef0 ef1 : IVec S200000 32) : IVec S200000 32 :=
  minsi (broadcastInDim S200000 ![] bcast_S_S200000 (id (constantI S_ 32 17#32)))
    (maxsi (broadcastInDim S200000 ![] bcast_S_S200000 (id (constantI S_ 32 0#32)))
      (addi (muli ef0 (broadcastInDim S200000 ![] bcast_S_S200000 (constantI S_ 32 3#32))) ef1))

/-- A negative index counts from the end of an axis of extent `n`. -/
def wrap (n : BitVec 32) (x : IVec S200000 32) : IVec S200000 32 :=
  select (cmpi .slt x (broadcastInDim S200000 ![] bcast_S_S200000 (constantI S_ 32 0#32)))
    (addi x (broadcastInDim S200000 ![] bcast_S_S200000 (constantI S_ 32 n))) x

/-- An index vector as a one-column matrix. -/
def col (x : IVec S200000 32) : IVec S200000x1 32 := broadcastInDim S200000x1 ![0] bcast_S200000_S200000x1_0 x

/-- The embedding row of every edge, read out of the table. -/
def edgeEmb (ef0 ef1 : IVec S200000 32) (W0 : FVec F S6x300 .f32) (B0 : FVec F S300 .f32) (W1 : FVec F S3x300 .f32)
    (B1 : FVec F S300 .f32) : FVec F S200000x300 .f32 :=
  Host.gather gather_S18x300_S200000x1_S200000x300_1_0_n_n_0_1_1300 (table W0 B0 W1 B1) (col (wrap 18#32 (clipIdx ef0 ef1)))

/-- Each edge's message (its source node's row plus its embedding) summed onto its destination node. -/
def agg (X : FVec F S100000x300 .f32) (src dst : IVec S200000 32) (E : FVec F S200000x300 .f32) : FVec F S100000x300 .f32 :=
  Host.scatterAdd scatter_S100000x300_S200000x1_S200000x300_1_0_0_1
    (broadcastInDim S100000x300 ![] bcast_S_S100000x300 (constant S_ .f32 0x00000000#32))
    (col dst)
    (addf (Host.gather gather_S100000x300_S200000x1_S200000x300_1_0_n_n_0_1_1300 X (col (wrap 100000#32 src))) E)

/-- The sum of every column. -/
def colSum (h : FVec F S100000x300 .f32) : FVec F S300 .f32 :=
  Host.reduceAdd h (constant S_ .f32 0x00000000#32) reducesTo_S100000x300_S300_d0 h_S_

/-- The number of rows, 100000, in every column's place. -/
def nrows : FVec F S300 .f32 := broadcastInDim S300 ![] bcast_S_S300 (constant S_ .f32 0x47C35000#32)

/-- The mean of every column. -/
def mean (h : FVec F S100000x300 .f32) : FVec F S300 .f32 := Host.divf (colSum h) nrows

/-- The one-pass variance of every column: mean of squares minus squared mean, never below zero. -/
def var (h : FVec F S100000x300 .f32) : FVec F S300 .f32 :=
  maximumf (subf (Host.divf (colSum (mulf h h)) nrows) (mulf (mean h) (mean h)))
    (broadcastInDim S300 ![] bcast_S_S300 (constant S_ .f32 0x00000000#32))

/-- A vector of 300 as a one-row matrix. -/
def row300 (v : FVec F S300 .f32) : FVec F S1x300 .f32 := shapeCast S1x300 v shapeCasts_S300_S1x300

/-- A vector of 600 as a one-row matrix. -/
def row600 (v : FVec F S600 .f32) : FVec F S1x600 .f32 := shapeCast S1x600 v shapeCasts_S600_S1x600

/-- The hidden features of every node. -/
def feats (X : FVec Ideal S100000x300 .f32) (src dst ef0 ef1 : IVec S200000 32)
    (W0 : FVec Ideal S6x300 .f32) (B0 : FVec Ideal S300 .f32) (W1 : FVec Ideal S3x300 .f32) (B1 : FVec Ideal S300 .f32)
    (M1 : FVec Ideal S300x600 .f32) (c1 : FVec Ideal S600 .f32) (M2 : FVec Ideal S600x300 .f32) (c2 : FVec Ideal S300 .f32) :
    FVec Ideal S100000x300 .f32 :=
  Cert.Spec.mlp (agg X src dst (edgeEmb ef0 ef1 W0 B0 W1 B1)) M1 c1 M2 c2

/-- The kernel program's result as a function of its fifteen arguments. -/
def out (X : FVec Ideal S100000x300 .f32) (src dst ef0 ef1 : IVec S200000 32)
    (W0 : FVec Ideal S6x300 .f32) (B0 : FVec Ideal S300 .f32) (W1 : FVec Ideal S3x300 .f32) (B1 : FVec Ideal S300 .f32)
    (M1 : FVec Ideal S300x600 .f32) (c1 : FVec Ideal S600 .f32) (M2 : FVec Ideal S600x300 .f32) (c2 : FVec Ideal S300 .f32)
    (γ β : FVec Ideal S300 .f32) : FVec Ideal S100000x300 .f32 :=
  Cert.Spec.bn (feats X src dst ef0 ef1 W0 B0 W1 B1 M1 c1 M2 c2)
    (mean (feats X src dst ef0 ef1 W0 B0 W1 B1 M1 c1 M2 c2)) (var (feats X src dst ef0 ef1 W0 B0 W1 B1 M1 c1 M2 c2)) γ β

end Cert.KernelIdeal.KT

end
-- ==== Proof.KernelHost.lean ====
import proofs.«428974_j8160437862943_3_alg».proof.Proof.Gen.KernelIdeal.Frame
import proofs.«428974_j8160437862943_3_alg».proof.Proof.KTerms

noncomputable section

namespace Cert.KernelIdeal.KHost

open Idealize.ShloMosaic Idealize.SL.Sem Cert.KernelIdeal Cert.KernelIdeal.Gen

variable {F : FTy → Type} [FloatOps F]
variable (m : (ℓ : Loc nD τ sig) → Buf (Elt F) ℓ) (ρ : Dev nD → PrngReg) (c : Dev nD)

/-! The buffer contents when region 0 is entered are the fold of three stretches of host operations over the
    launch memory; read at one reference, the fold is the composition of the operations that reach that reference.
    Between the two regions one more stretch runs over region 0's exit contents. -/

/-- No host operation before region 0 writes an argument: its buffer still holds the launch contents. -/
theorem W3_arg9 : W3 m ρ c (Proc.devRef .tc main_arg9) = m ((c.tc : Thread nD τ).loc main_arg9) := by
  show StableHlo.after hostOps0_2 (StableHlo.after hostOps0_1 (StableHlo.after hostOps0 (W0 m ρ c))) (Proc.devRef .tc main_arg9) = _
  after_results_simp
theorem W3_arg11 : W3 m ρ c (Proc.devRef .tc main_arg11) = m ((c.tc : Thread nD τ).loc main_arg11) := by
  show StableHlo.after hostOps0_2 (StableHlo.after hostOps0_1 (StableHlo.after hostOps0 (W0 m ρ c))) (Proc.devRef .tc main_arg11) = _
  after_results_simp
theorem W3_arg13 : W3 m ρ c (Proc.devRef .tc main_arg13) = m ((c.tc : Thread nD τ).loc main_arg13) := by
  show StableHlo.after hostOps0_2 (StableHlo.after hostOps0_1 (StableHlo.after hostOps0 (W0 m ρ c))) (Proc.devRef .tc main_arg13) = _
  after_results_simp
theorem W3_arg14 : W3 m ρ c (Proc.devRef .tc main_arg14) = m ((c.tc : Thread nD τ).loc main_arg14) := by
  show StableHlo.after hostOps0_2 (StableHlo.after hostOps0_1 (StableHlo.after hostOps0 (W0 m ρ c))) (Proc.devRef .tc main_arg14) = _
  after_results_simp

theorem V3_agg : V3 m ρ c main_v33 = KT.agg (m ((c.tc : Thread nD τ).loc main_arg0)) (m ((c.tc : Thread nD τ).loc main_arg1)) (m ((c.tc : Thread nD τ).loc main_arg2))
    (KT.edgeEmb (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show StableHlo.after hostOps0_2 (StableHlo.after hostOps0_1 (StableHlo.after hostOps0 (W0 m ρ c))) (Proc.devRef .tc main_v33) = _
  after_results_simp
  -- the inlined function's operands are moved along type equations that are reflexivity at literal references
  simp only [StableHlo.TRef.ofBuf, StableHlo.TRef.toBuf, cast_eq]
  unfold KT.agg KT.edgeEmb KT.table KT.clipIdx KT.wrap KT.col
  rfl
theorem V3_M1 : V3 m ρ c main_arg9 = m ((c.tc : Thread nD τ).loc main_arg9) := by
  exact W3_arg9 m ρ c
theorem V3_c1 : V3 m ρ c main_v34 = KT.row600 (m ((c.tc : Thread nD τ).loc main_arg10)) := by
  show StableHlo.after hostOps0_2 (StableHlo.after hostOps0_1 (StableHlo.after hostOps0 (W0 m ρ c))) (Proc.devRef .tc main_v34) = _
  after_results_simp
  rfl
theorem V3_M2 : V3 m ρ c main_arg11 = m ((c.tc : Thread nD τ).loc main_arg11) := by
  exact W3_arg11 m ρ c
theorem V3_c2 : V3 m ρ c main_v35 = KT.row300 (m ((c.tc : Thread nD τ).loc main_arg12)) := by
  show StableHlo.after hostOps0_2 (StableHlo.after hostOps0_1 (StableHlo.after hostOps0 (W0 m ρ c))) (Proc.devRef .tc main_v35) = _
  after_results_simp
  rfl
theorem V5_h : V5 m ρ c main_v36 = W4 m ρ c (Proc.devRef .tc main_v36) := by
  show StableHlo.after hostOps1 (W4 m ρ c) (Proc.devRef .tc main_v36) = _
  after_results_simp
theorem V5_mean : V5 m ρ c main_v48 = KT.row300 (KT.mean (W4 m ρ c (Proc.devRef .tc main_v36))) := by
  show StableHlo.after hostOps1 (W4 m ρ c) (Proc.devRef .tc main_v48) = _
  after_results_simp
  unfold KT.row300 KT.mean KT.colSum KT.nrows
  rfl
theorem V5_var : V5 m ρ c main_v49 = KT.row300 (KT.var (W4 m ρ c (Proc.devRef .tc main_v36))) := by
  show StableHlo.after hostOps1 (W4 m ρ c) (Proc.devRef .tc main_v49) = _
  after_results_simp
  unfold KT.row300 KT.var KT.mean KT.colSum KT.nrows
  rfl
theorem V5_gamma : V5 m ρ c main_v50 = KT.row300 (m ((c.tc : Thread nD τ).loc main_arg13)) := by
  show StableHlo.after hostOps1 (W4 m ρ c) (Proc.devRef .tc main_v50) = _
  after_results_simp
  rw [W4_of_ne m ρ c main_arg13 (by decide), W3_arg13]
  rfl
theorem V5_beta : V5 m ρ c main_v51 = KT.row300 (m ((c.tc : Thread nD τ).loc main_arg14)) := by
  show StableHlo.after hostOps1 (W4 m ρ c) (Proc.devRef .tc main_v51) = _
  after_results_simp
  rw [W4_of_ne m ρ c main_arg14 (by decide), W3_arg14]
  rfl

end Cert.KernelIdeal.KHost

end
-- ==== Proof.KernelMlp.lean ====
/-
  The first region of the kernel program, read as mathematics. Its grid has fifty points; point t stages rows
  2000 t to 2000 t + 1999 of the aggregated-message array together with the whole of the two weight matrices and of the
  two bias rows, and its body stores, into the matching rows of the output, for every row x of the block

      max (x · M₁ + c₁, 0) · M₂ + c₂.

  On the extended reals the changes of float format are the identity, a product into the zero accumulator is the plain
  sum of products over the contracted coordinate, and the rectifier is the maximum with zero, so entry (p, q) of the
  stored block is  Σ_{k₂} max (Σ_{k₁} x[p, k₁] · M₁[k₁, k₂] + c₁[k₂], 0) · M₂[k₂, q] + c₂[q].  Row p of the block at
  point t is row 2000 t + p of the array, so each point writes back its block of ONE function of the arrays, the
  specification's perceptron; the fifty blocks of 2000 rows cover the 100000 rows (row r lies in the block of point
  r / 2000), hence the output array after the region is that function.
-/
import proofs.«428974_j8160437862943_3_alg».proof.Proof.Gen.KernelIdeal.Frame
import proofs.«428974_j8160437862943_3_alg».proof.Proof.KTerms
import Idealize.ShloMosaic.PureOps.Ideal.Laws
import Idealize.ShloMosaic.Lib.ValueIdx
import Idealize.ShloMosaic.Lib.Pipeline.Value

noncomputable section

namespace Cert.KernelIdeal.KMlp

open Idealize.ShloMosaic Idealize.ShloMosaic.TcCoe Idealize.ShloMosaic.ValueIdx Idealize.SL.Sem Cert.KernelIdeal Cert.KernelIdeal.Gen

/-- The zero offsets of a whole-buffer access, however spelt. -/
theorem zero_offsets : (![0, 0] : Fin 2 → Nat) = fun _ => 0 := funext fun a => by fin_cases a <;> rfl

/-! ## The two products read at an index

Each product contracts the left operand's columns with the right operand's rows: at the result's entry (p, q) the left
operand is read along row p and the right along column q. The four coordinate facts of each product's operand indices
come first, one per operand axis. -/

theorem lhs1_0 (i : S2000x600.Idx) (q : dot_S2000x300_S300x600_S2000x600_1_0_0_1_n_n.contr.Idx) :
    (dot_S2000x300_S300x600_S2000x600_1_0_0_1_n_n.lhsIdx i q 0).val = (i 0).val := by
  unfold DotDims.lhsIdx
  rw [dif_neg (show ¬(0 : Fin S2000x300.rank) ∈ dot_S2000x300_S300x600_S2000x600_1_0_0_1_n_n.lhsBatch by decide),
    dif_pos (show (0 : Fin S2000x300.rank) ∈ dot_S2000x300_S300x600_S2000x600_1_0_0_1_n_n.lhsNonContracting by decide)]
  rfl
theorem lhs1_1 (i : S2000x600.Idx) (q : dot_S2000x300_S300x600_S2000x600_1_0_0_1_n_n.contr.Idx) :
    (dot_S2000x300_S300x600_S2000x600_1_0_0_1_n_n.lhsIdx i q 1).val = (q ⟨0, by decide⟩).val :=
  dot_S2000x300_S300x600_S2000x600_1_0_0_1_n_n.lhsIdx_val_of_single rfl i q
theorem rhs1_0 (i : S2000x600.Idx) (q : dot_S2000x300_S300x600_S2000x600_1_0_0_1_n_n.contr.Idx) :
    (dot_S2000x300_S300x600_S2000x600_1_0_0_1_n_n.rhsIdx i q 0).val = (q ⟨0, by decide⟩).val :=
  dot_S2000x300_S300x600_S2000x600_1_0_0_1_n_n.rhsIdx_val_of_single rfl i q
theorem rhs1_1 (i : S2000x600.Idx) (q : dot_S2000x300_S300x600_S2000x600_1_0_0_1_n_n.contr.Idx) :
    (dot_S2000x300_S300x600_S2000x600_1_0_0_1_n_n.rhsIdx i q 1).val = (i 1).val := by
  unfold DotDims.rhsIdx
  rw [dif_neg (show ¬(1 : Fin S300x600.rank) ∈ dot_S2000x300_S300x600_S2000x600_1_0_0_1_n_n.rhsBatch by decide),
    dif_pos (show (1 : Fin S300x600.rank) ∈ dot_S2000x300_S300x600_S2000x600_1_0_0_1_n_n.rhsNonContracting by decide)]
  rfl

/-- The first product, into the zero accumulator, at (p, q): row p of the left operand against column q of the right. -/
theorem mm1_apply {φ₁ φ₂ : FTy} (x : FVec Ideal S2000x300 φ₁) (y : FVec Ideal S300x600 φ₂) (p : Fin 2000) (q : Fin 600) :
    matmul dot_S2000x300_S300x600_S2000x600_1_0_0_1_n_n none x y (constant (F := Ideal) S2000x600 .f32 0x00000000#32) (ix2 p q)
      = ∑ k : Fin 300, x (ix2 p k) * y (ix2 k q) := by
  show FloatOps.matmul dot_S2000x300_S300x600_S2000x600_1_0_0_1_n_n none x y (constant (F := Ideal) S2000x600 .f32 0x00000000#32) (ix2 p q) = _
  rw [Ideal.matmul_constant_zero_apply, ← Equiv.sum_comp (contrEquiv1 dot_S2000x300_S300x600_S2000x600_1_0_0_1_n_n 300 rfl rfl).symm]
  refine Finset.sum_congr rfl fun k _ => ?_
  have hk := contrEquiv1_symm_val dot_S2000x300_S300x600_S2000x600_1_0_0_1_n_n 300 rfl rfl k
  have el : dot_S2000x300_S300x600_S2000x600_1_0_0_1_n_n.lhsIdx (ix2 p q) ((contrEquiv1 dot_S2000x300_S300x600_S2000x600_1_0_0_1_n_n 300 rfl rfl).symm k) = ix2 p k := funext fun a => Fin.ext (by
    match a with
    | ⟨0, _⟩ => exact lhs1_0 _ _
    | ⟨1, _⟩ => exact (lhs1_1 _ _).trans hk)
  have er : dot_S2000x300_S300x600_S2000x600_1_0_0_1_n_n.rhsIdx (ix2 p q) ((contrEquiv1 dot_S2000x300_S300x600_S2000x600_1_0_0_1_n_n 300 rfl rfl).symm k) = ix2 k q := funext fun a => Fin.ext (by
    match a with
    | ⟨0, _⟩ => exact (rhs1_0 _ _).trans hk
    | ⟨1, _⟩ => exact rhs1_1 _ _)
  rw [el, er]

theorem lhs2_0 (i : S2000x300.Idx) (q : dot_S2000x600_S600x300_S2000x300_1_0_0_1_n_n.contr.Idx) :
    (dot_S2000x600_S600x300_S2000x300_1_0_0_1_n_n.lhsIdx i q 0).val = (i 0).val := by
  unfold DotDims.lhsIdx
  rw [dif_neg (show ¬(0 : Fin S2000x600.rank) ∈ dot_S2000x600_S600x300_S2000x300_1_0_0_1_n_n.lhsBatch by decide),
    dif_pos (show (0 : Fin S2000x600.rank) ∈ dot_S2000x600_S600x300_S2000x300_1_0_0_1_n_n.lhsNonContracting by decide)]
  rfl
theorem lhs2_1 (i : S2000x300.Idx) (q : dot_S2000x600_S600x300_S2000x300_1_0_0_1_n_n.contr.Idx) :
    (dot_S2000x600_S600x300_S2000x300_1_0_0_1_n_n.lhsIdx i q 1).val = (q ⟨0, by decide⟩).val :=
  dot_S2000x600_S600x300_S2000x300_1_0_0_1_n_n.lhsIdx_val_of_single rfl i q
theorem rhs2_0 (i : S2000x300.Idx) (q : dot_S2000x600_S600x300_S2000x300_1_0_0_1_n_n.contr.Idx) :
    (dot_S2000x600_S600x300_S2000x300_1_0_0_1_n_n.rhsIdx i q 0).val = (q ⟨0, by decide⟩).val :=
  dot_S2000x600_S600x300_S2000x300_1_0_0_1_n_n.rhsIdx_val_of_single rfl i q
theorem rhs2_1 (i : S2000x300.Idx) (q : dot_S2000x600_S600x300_S2000x300_1_0_0_1_n_n.contr.Idx) :
    (dot_S2000x600_S600x300_S2000x300_1_0_0_1_n_n.rhsIdx i q 1).val = (i 1).val := by
  unfold DotDims.rhsIdx
  rw [dif_neg (show ¬(1 : Fin S600x300.rank) ∈ dot_S2000x600_S600x300_S2000x300_1_0_0_1_n_n.rhsBatch by decide),
    dif_pos (show (1 : Fin S600x300.rank) ∈ dot_S2000x600_S600x300_S2000x300_1_0_0_1_n_n.rhsNonContracting by decide)]
  rfl

/-- The second product likewise: row p of the hidden block against column q of the second weight matrix. -/
theorem mm2_apply {φ₁ φ₂ : FTy} (x : FVec Ideal S2000x600 φ₁) (y : FVec Ideal S600x300 φ₂) (p : Fin 2000) (q : Fin 300) :
    matmul dot_S2000x600_S600x300_S2000x300_1_0_0_1_n_n none x y (constant (F := Ideal) S2000x300 .f32 0x00000000#32) (ix2 p q)
      = ∑ k : Fin 600, x (ix2 p k) * y (ix2 k q) := by
  show FloatOps.matmul dot_S2000x600_S600x300_S2000x300_1_0_0_1_n_n none x y (constant (F := Ideal) S2000x300 .f32 0x00000000#32) (ix2 p q) = _
  rw [Ideal.matmul_constant_zero_apply, ← Equiv.sum_comp (contrEquiv1 dot_S2000x600_S600x300_S2000x300_1_0_0_1_n_n 600 rfl rfl).symm]
  refine Finset.sum_congr rfl fun k _ => ?_
  have hk := contrEquiv1_symm_val dot_S2000x600_S600x300_S2000x300_1_0_0_1_n_n 600 rfl rfl k
  have el : dot_S2000x600_S600x300_S2000x300_1_0_0_1_n_n.lhsIdx (ix2 p q) ((contrEquiv1 dot_S2000x600_S600x300_S2000x300_1_0_0_1_n_n 600 rfl rfl).symm k) = ix2 p k := funext fun a => Fin.ext (by
    match a with
    | ⟨0, _⟩ => exact lhs2_0 _ _
    | ⟨1, _⟩ => exact (lhs2_1 _ _).trans hk)
  have er : dot_S2000x600_S600x300_S2000x300_1_0_0_1_n_n.rhsIdx (ix2 p q) ((contrEquiv1 dot_S2000x600_S600x300_S2000x300_1_0_0_1_n_n 600 rfl rfl).symm k) = ix2 k q := funext fun a => Fin.ext (by
    match a with
    | ⟨0, _⟩ => exact (rhs2_0 _ _).trans hk
    | ⟨1, _⟩ => exact rhs2_1 _ _)
  rw [el, er]

/-! ## The body's arithmetic at an entry of a block -/

/-- The first bias row, spread over the 2000 rows of a block, reads its own entry in every row. -/
theorem bias600_apply (x2 : FVec Ideal S1x600 .f32) (p : Fin 2000) (k : Fin 600) :
    broadcastTo S2000x600 (shapeCast S1x600 x2 shapeCasts_S1x600_S1x600) broadcasts_S1x600_S2000x600 (ix2 p k)
      = x2 (ix2 0 k) := by
  rw [shapeCast_self]
  exact broadcastTo_apply x2 _ (ix2 p k) (ix2 0 k) fun a => by
    match a with
    | ⟨0, _⟩ => rfl
    | ⟨1, _⟩ => rfl

/-- The second bias row likewise. -/
theorem bias300_apply (x4 : FVec Ideal S1x300 .f32) (p : Fin 2000) (q : Fin 300) :
    broadcastTo S2000x300 (shapeCast S1x300 x4 shapeCasts_S1x300_S1x300) broadcasts_S1x300_S2000x300 (ix2 p q)
      = x4 (ix2 0 q) := by
  rw [shapeCast_self]
  exact broadcastTo_apply x4 _ (ix2 p q) (ix2 0 q) fun a => by
    match a with
    | ⟨0, _⟩ => rfl
    | ⟨1, _⟩ => rfl

/-- What the body stores at entry (p, q) of its output block, from its five loaded blocks: the changes of float format
    are the identity on the extended reals, each product into the zero accumulator is the plain sum of products, and the
    rectifier is the maximum with zero. -/
theorem pay_apply (x0 : FVec Ideal S2000x300 .f32) (x1 : FVec Ideal S300x600 .f32) (x2 : FVec Ideal S1x600 .f32)
    (x3 : FVec Ideal S600x300 .f32) (x4 : FVec Ideal S1x300 .f32) (p : Fin 2000) (q : Fin 300) :
    k0_pay1 (F := Ideal) x0 x1 x2 x3 x4 (ix2 p q)
      = (∑ k2 : Fin 600, max ((∑ k1 : Fin 300, x0 (ix2 p k1) * x1 (ix2 k1 k2)) + x2 (ix2 0 k2)) 0 * x3 (ix2 k2 q))
        + x4 (ix2 0 q) := by
  unfold k0_pay1
  rw [addf_apply, mm2_apply, bias300_apply]
  refine congrArg (· + x4 (ix2 0 q)) (Finset.sum_congr rfl fun k2 _ => ?_)
  rw [truncf_apply, truncf_apply, maximumf_apply, addf_apply, mm1_apply, bias600_apply, broadcast_apply]
  simp only [truncf_apply, shapeCast_self, Ideal.ofBits_def, Ideal.ofBits_zero_f32]

/-! ## From the loaded blocks to the arrays -/

/-- The body's stored entry is the perceptron's entry, once the loaded blocks are known: row p of the input block is
    row r of the input array, the weight blocks are the weight arrays, and the two bias rows hold the two bias vectors. -/
theorem pay_eq_mlp (x0 : FVec Ideal S2000x300 .f32) (x2 : FVec Ideal S1x600 .f32) (x4 : FVec Ideal S1x300 .f32)
    (a : FVec Ideal S100000x300 .f32) (M1 : FVec Ideal S300x600 .f32) (c1 : FVec Ideal S600 .f32)
    (M2 : FVec Ideal S600x300 .f32) (c2 : FVec Ideal S300 .f32) (p : Fin 2000) (q : Fin 300) (r : Fin 100000)
    (h0 : ∀ k, x0 (ix2 p k) = a (ix2 r k)) (h2 : ∀ k, x2 (ix2 0 k) = c1 (ix1 k)) (h4 : ∀ k, x4 (ix2 0 k) = c2 (ix1 k)) :
    k0_pay1 (F := Ideal) x0 M1 x2 M2 x4 (ix2 p q) = Cert.Spec.mlp a M1 c1 M2 c2 (ix2 r q) := by
  rw [pay_apply]
  show _ = (∑ k2 : Fin 600, Cert.Spec.hidden a M1 c1 r k2 * M2 (ix2 k2 q)) + c2 (ix1 q)
  rw [h4]
  refine congrArg (· + c2 (ix1 q)) (Finset.sum_congr rfl fun k2 _ => ?_)
  unfold Cert.Spec.hidden
  rw [h2]
  refine congrArg (fun s => max (s + c1 (ix1 k2)) 0 * M2 (ix2 k2 q)) (Finset.sum_congr rfl fun k1 _ => ?_)
  rw [h0]

/-- A vector of 600 laid out as one row reads its own entries along that row. -/
theorem row600_apply (c1 : FVec Ideal S600 .f32) (k : Fin 600) : KT.row600 c1 (ix2 0 k) = c1 (ix1 k) := by
  unfold KT.row600
  refine shapeCast_apply c1 _ (ix2 0 k) (ix1 k) ?_
  rw [Shape.rowMajor_val_one, Shape.rowMajor_val_two]
  show k.val = 0 * 600 + k.val
  omega

/-- A vector of 300 likewise. -/
theorem row300_apply (c2 : FVec Ideal S300 .f32) (k : Fin 300) : KT.row300 c2 (ix2 0 k) = c2 (ix1 k) := by
  unfold KT.row300
  refine shapeCast_apply c2 _ (ix2 0 k) (ix1 k) ?_
  rw [Shape.rowMajor_val_one, Shape.rowMajor_val_two]
  show k.val = 0 * 300 + k.val
  omega

/-- The block index of every window at every point of the grid: the input and the output move one block of rows per
    point, the weights and the bias rows stay at their one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b)) (c : Dev nD)

/-- Entry (p, k) of the input's block at point t is entry (2000 t + p, k) of the input array. -/
theorem blk0_apply (t : Fin cfg0.N) (p : Fin 2000) (k : Fin 300) (r : Fin 100000) (hr : r.val = t.val * 2000 + p.val) :
    (iblk0 V c 0 t : FVec Ideal S2000x300 .f32) (ix2 p k) = (V c main_v33 : FVec Ideal S100000x300 .f32) (ix2 r k) := by
  obtain ⟨e0, e1, -⟩ := block_index t
  unfold iblk0
  rw [View.read_apply]
  show V c main_v33 _ = V c main_v33 _
  refine congrArg _ (funext fun a => Fin.ext ?_)
  match a with
  | ⟨0, _⟩ => show win0_0.index t (0 : Fin 2) * 2000 + 1 * p.val = r.val; omega
  | ⟨1, _⟩ => show win0_0.index t (1 : Fin 2) * 300 + 1 * k.val = k.val; omega

/-- The first weight matrix's one block is the matrix. -/
theorem blk1_eq (t : Fin cfg0.N) : (iblk0 V c 1 t : FVec Ideal S300x600 .f32) = V c main_arg9 := by
  obtain ⟨-, -, e0, e1, -⟩ := block_index t
  funext y
  unfold iblk0
  rw [View.read_apply]
  show V c main_arg9 _ = V c main_arg9 y
  refine congrArg _ (funext fun a => Fin.ext ?_)
  match a with
  | ⟨0, _⟩ => show win0_1.index t (0 : Fin 2) * 300 + 1 * (y 0).val = (y 0).val; omega
  | ⟨1, _⟩ => show win0_1.index t (1 : Fin 2) * 600 + 1 * (y 1).val = (y 1).val; omega

/-- The first bias row's one block is the row. -/
theorem blk2_eq (t : Fin cfg0.N) : (iblk0 V c 2 t : FVec Ideal S1x600 .f32) = V c main_v34 := by
  obtain ⟨-, -, -, -, e0, e1, -⟩ := block_index t
  funext y
  unfold iblk0
  rw [View.read_apply]
  show V c main_v34 _ = V c main_v34 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 600 + 1 * (y 1).val = (y 1).val; omega

/-- The second weight matrix's one block is the matrix. -/
theorem blk3_eq (t : Fin cfg0.N) : (iblk0 V c 3 t : FVec Ideal S600x300 .f32) = V c main_arg11 := by
  obtain ⟨-, -, -, -, -, -, e0, e1, -⟩ := block_index t
  funext y
  unfold iblk0
  rw [View.read_apply]
  show V c main_arg11 _ = V c main_arg11 y
  refine congrArg _ (funext fun a => Fin.ext ?_)
  match a with
  | ⟨0, _⟩ => show win0_3.index t (0 : Fin 2) * 600 + 1 * (y 0).val = (y 0).val; omega
  | ⟨1, _⟩ => show win0_3.index t (1 : Fin 2) * 300 + 1 * (y 1).val = (y 1).val; omega

/-- The second bias row's one block is the row. -/
theorem blk4_eq (t : Fin cfg0.N) : (iblk0 V c 4 t : FVec Ideal S1x300 .f32) = V c main_v35 := by
  obtain ⟨-, -, -, -, -, -, -, -, e0, e1, -⟩ := block_index t
  funext y
  unfold iblk0
  rw [View.read_apply]
  show V c main_v35 _ = V c main_v35 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 300 + 1 * (y 1).val = (y 1).val; omega

end Blocks

/-! ## What a point writes back, the blocks' cover of the rows, and the array after the region -/

section Region
variable (V : (c : Dev nD) → (b : Ref sig .tc) → Buf (Elt Ideal) ((c : Thread nD τ).loc b)) (c : Dev nD)

/-- What point t writes back to the output array is block t of the perceptron of the input array: the body's stored
    block, entry by entry, over the input's block of rows 2000 t to 2000 t + 1999 and the whole weights and biases. -/
theorem written_back (a : FVec Ideal S100000x300 .f32) (M1 : FVec Ideal S300x600 .f32) (c1 : FVec Ideal S600 .f32)
    (M2 : FVec Ideal S600x300 .f32) (c2 : FVec Ideal S300 .f32)
    (ha : V c main_v33 = a) (hM1 : V c main_arg9 = M1) (hc1 : V c main_v34 = KT.row600 c1)
    (hM2 : V c main_arg11 = M2) (hc2 : V c main_v35 = KT.row300 c2) (t : Fin cfg0.N) :
    (dat0 (F := Ideal) V c).flushed 5 t
      = ((cfg0.win 5).blk t).view.read (Elt Ideal) (Cert.Spec.mlp a M1 c1 M2 c2) := by
  show (cfg0.win 5).cut (grid0.coords t) ((dat0 V c).after 5 t) = _
  rw [after0_5]
  unfold out0_5
  rw [View.canon_unit_zero zero_offsets]
  simp only [View.ld_unit_zero (S := S2000x300) zero_offsets, View.ld_unit_zero (S := S300x600) zero_offsets,
    View.ld_unit_zero (S := S1x600) zero_offsets, View.ld_unit_zero (S := S600x300) zero_offsets, View.ld_unit_zero (S := S1x300) zero_offsets]
  rw [blk1_eq, blk2_eq, blk3_eq, blk4_eq, hM1, hc1, hM2, hc2]
  obtain ⟨-, -, -, -, -, -, -, -, -, -, e0, e1⟩ := block_index t
  have ht : t.val < 50 := t.isLt
  funext j
  obtain ⟨p, q, rfl⟩ : ∃ (p : Fin 2000) (q : Fin 300), j = ix2 p q := ⟨j 0, j 1, eq_ix2 (n0 := 2000) (n1 := 300) j⟩
  show k0_pay1 (F := Ideal) (iblk0 V c 0 t) M1 (KT.row600 c1) M2 (KT.row300 c2) (ix2 p q)
    = Cert.Spec.mlp a M1 c1 M2 c2 (((cfg0.win 5).blk t).view.emb (ix2 p q))
  refine (pay_eq_mlp (iblk0 V c 0 t) (KT.row600 c1) (KT.row300 c2) a M1 c1 M2 c2 p q
    ⟨t.val * 2000 + p.val, by have := p.isLt; omega⟩
    (fun k => (blk0_apply V c t p k _ rfl).trans (by rw [ha])) (row600_apply c1) (row300_apply c2)).trans ?_
  refine congrArg _ (funext fun ax => Fin.ext ?_)
  match ax with
  | ⟨0, _⟩ => show t.val * 2000 + p.val = win0_5.index t (0 : Fin 2) * 2000 + 1 * p.val; omega
  | ⟨1, _⟩ => show q.val = win0_5.index t (1 : Fin 2) * 300 + 1 * q.val; omega

/-- An index of the output array is in point t's block exactly when each coordinate is in the block's range on its axis. -/
theorem mem_rows_block (t : Fin cfg0.N) (i : S100000x300.Idx) :
    i ∈ ((cfg0.win 5).blk t).view.set ↔ ∀ ax : Fin 2, win0_5.index t ax * S2000x300.size ax ≤ (i ax).val
      ∧ (i ax).val < win0_5.index t ax * S2000x300.size ax + S2000x300.size ax := by
  show i ∈ ((View.whole main_v36).slice (win0_5.rect t)).set ↔ _
  rw [View.set_slice_whole, Rect.mem_set_unit]
  exact Iff.rfl

/-- Every row of the output array lies in some point's block: row r in the block of point r / 2000. -/
theorem rows_covered (i : S100000x300.Idx) :
    ∃ t : Fin cfg0.N, (cfg0.win 5).flush t = true ∧ i ∈ ((cfg0.win 5).blk t).view.set := by
  have hi0 : (i 0).val < 100000 := (i 0).isLt
  have hi1 : (i 1).val < 300 := (i 1).isLt
  have hN : cfg0.N = 50 := N_0
  have hlt : (i 0).val / 2000 < cfg0.N := by rw [hN]; omega
  obtain ⟨-, -, -, -, -, -, -, -, -, -, e0, e1⟩ := block_index ⟨(i 0).val / 2000, hlt⟩
  refine ⟨⟨(i 0).val / 2000, hlt⟩, flush0_5 _, ?_⟩
  rw [mem_rows_block]
  intro ax
  match ax with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, hlt⟩ (1 : Fin 2) * 300 ≤ (i 1).val
      ∧ (i 1).val < win0_5.index ⟨(i 0).val / 2000, hlt⟩ (1 : Fin 2) * 300 + 300
    omega

end Region

/-- After the region the output array holds the two-layer perceptron of the input array, row by row: every point
    writes back its block of that one function, and the fifty blocks cover the array. -/
theorem arr_mlp (V : (c : Dev nD) → (b : Ref sig .tc) → Buf (Elt Ideal) ((c : Thread nD τ).loc b)) (c : Dev nD)
    (a : FVec Ideal S100000x300 .f32) (M1 : FVec Ideal S300x600 .f32) (c1 : FVec Ideal S600 .f32)
    (M2 : FVec Ideal S600x300 .f32) (c2 : FVec Ideal S300 .f32)
    (ha : V c main_v33 = a) (hM1 : V c main_arg9 = M1) (hc1 : V c main_v34 = KT.row600 c1)
    (hM2 : V c main_arg11 = M2) (hc2 : V c main_v35 = KT.row300 c2) :
    (dat0 (F := Ideal) V c).arrAt 5 cfg0.N = Cert.Spec.mlp a M1 c1 M2 c2 :=
  (dat0 (F := Ideal) V c).arrAt_eq_of_cover 5 (Cert.Spec.mlp a M1 c1 M2 c2)
    (fun t _ => written_back V c a M1 c1 M2 c2 ha hM1 hc1 hM2 hc2 t) rows_covered

end Cert.KernelIdeal.KMlp

end
-- ==== Proof.KernelNorm.lean ====
/-
  Region 1 of the kernel program: the column-wise normalisation, block by block.

  The grid has 25 points. Point `t` reads rows `4000·t … 4000·t + 3999` of the array of rows and, whole, the four
  one-row arrays holding the mean, the variance, the scale and the shift of every column; its body computes, at row
  `p` and column `q` of the block, `(x[p, q] − mean[q])·(var[q] + ε)^(−1/2)·γ[q] + β[q]`, and the point writes the
  result back to the same rows of the output array. Read at an index, the body's result is the normalisation at the
  array index the block's entry comes from; every point therefore writes back its block of ONE function of the
  array index, the blocks cover the array (row `r` lies in the block of point `r / 4000`), and the output array ends
  holding that function.
-/
import proofs.«428974_j8160437862943_3_alg».proof.Proof.Gen.KernelIdeal.Frame
import proofs.«428974_j8160437862943_3_alg».proof.Proof.KTerms
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KNorm

open Idealize.ShloMosaic Idealize.ShloMosaic.TcCoe Idealize.ShloMosaic.ValueIdx Idealize.SL.Sem Cert.KernelIdeal Cert.KernelIdeal.Gen

/-- The two zero offsets of a whole-buffer access, as the constant function. -/
theorem zero_offsets : (![0, 0] : Fin 2 → Nat) = fun _ => 0 := funext fun a => by fin_cases a <;> rfl

/-- The body's result at row `p`, column `q` of its block: the block's entry minus the mean row's, times the
    reciprocal square root of the variance row's plus the stabiliser, times the scale row's, plus the shift row's,
    each row read at column `q`. -/
theorem body_at (x : FVec Ideal S4000x300 .f32) (vr mn g b : FVec Ideal S1x300 .f32) (p : Fin 4000) (q : Fin 300) :
    k1_pay1 x vr mn g b (ix2 p q)
      = ((x (ix2 p q) - mn (ix2 (0 : Fin 1) q)) * Ideal.rsqrt (vr (ix2 (0 : Fin 1) q) + Cert.Spec.eps)) * g (ix2 (0 : Fin 1) q)
        + b (ix2 (0 : Fin 1) q) := by
  unfold k1_pay1
  simp only [shapeCast_self]
  show (x (ix2 p q) - broadcastTo S4000x300 mn broadcasts_S1x300_S4000x300 (ix2 p q))
        * broadcastTo S4000x300 (rsqrt (addf vr (broadcast S1x300 (Scalar.ofBits .f32 0x3727C5AC#32)))) broadcasts_S1x300_S4000x300 (ix2 p q)
        * broadcastTo S4000x300 g broadcasts_S1x300_S4000x300 (ix2 p q)
        + broadcastTo S4000x300 b broadcasts_S1x300_S4000x300 (ix2 p q) = _
  rw [broadcastTo_1b_ab_apply mn, broadcastTo_1b_ab_apply g, broadcastTo_1b_ab_apply b, broadcastTo_1b_ab_apply (rsqrt _)]
  rfl

/-- A vector of 300 laid out as one row reads, at column `q`, the vector at `q`. -/
theorem row300_apply (v : FVec Ideal S300 .f32) (u : Fin 1) (q : Fin 300) : KT.row300 v (ix2 u q) = v (ix1 q) :=
  shapeCast_a_1a_apply v shapeCasts_S300_S1x300 u q

/-- The body's result at `(p, q)` is the normalisation at the array index `i` the block's entry `(p, q)` comes
    from, when the four rows are the mean, variance, scale and shift laid out as rows and `i`'s column is `q`. -/
theorem body_at_eq_bn (h : FVec Ideal S100000x300 .f32) (mu va γ β : FVec Ideal S300 .f32)
    (x : FVec Ideal S4000x300 .f32) (vr mn g b : FVec Ideal S1x300 .f32)
    (p : Fin 4000) (q : Fin 300) (i : S100000x300.Idx)
    (hx : x (ix2 p q) = h i) (hq : (i 1).val = q.val)
    (hmn : mn (ix2 (0 : Fin 1) q) = mu (ix1 q)) (hvr : vr (ix2 (0 : Fin 1) q) = va (ix1 q))
    (hg : g (ix2 (0 : Fin 1) q) = γ (ix1 q)) (hb : b (ix2 (0 : Fin 1) q) = β (ix1 q)) :
    k1_pay1 x vr mn g b (ix2 p q) = Cert.Spec.bn h mu va γ β i := by
  rw [body_at, hx, hmn, hvr, hg, hb]
  have e : (i 1 : Fin 300) = q := Fin.ext hq
  show _ = ((h i - mu (ix1 (i 1))) * Ideal.rsqrt (va (ix1 (i 1)) + Cert.Spec.eps)) * γ (ix1 (i 1)) + β (ix1 (i 1))
  rw [e]

/-- The printed index maps over the 25 grid points: the block of rows and the output's block are the point's own,
    in the one block of columns; the four rows are fetched whole at every point. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- An array that is a vector of 300 laid out as one row reads, at any index whose column is `q`, the vector at `q`. -/
theorem row_read (A : FVec Ideal S1x300 .f32) (v : FVec Ideal S300 .f32) (hA : A = KT.row300 v) (i : S1x300.Idx) (q : Fin 300)
    (hi : (i 1).val = q.val) : A i = v (ix1 q) := by
  subst hA
  have e : i = ix2 (i 0) q := by
    funext a
    match a with
    | ⟨0, _⟩ => rfl
    | ⟨1, _⟩ => exact Fin.ext hi
  rw [e]
  exact row300_apply v _ q

/-- WHAT GRID POINT `t` WRITES BACK is block `t` of the column-wise normalisation of the array of rows: entry
    `(p, q)` of the body's result is the normalisation at row `4000·t + p`, column `q`, because the block of rows the
    point reads and the block it writes sit at the same rows, and the four one-row windows are read whole. -/
theorem written_block_eq_bn (V : (c : Dev nD) → (b : Ref sig .tc) → Buf (Elt Ideal) ((c : Thread nD τ).loc b)) (c : Dev nD)
    (h : FVec Ideal S100000x300 .f32) (mu va γ β : FVec Ideal S300 .f32)
    (hh : V c main_v36 = h) (hmu : V c main_v48 = KT.row300 mu) (hva : V c main_v49 = KT.row300 va)
    (hγ : V c main_v50 = KT.row300 γ) (hβ : V c main_v51 = KT.row300 β) (t : Fin cfg1.N) :
    (dat1 (F := Ideal) V c).flushed 5 t
      = ((cfg1.win 5).blk t).view.read (Elt Ideal) (Cert.Spec.bn h mu va γ β) := by
  show (cfg1.win 5).cut (grid1.coords t) ((dat1 V c).after 5 t) = _
  rw [after1_5]
  unfold out1_5
  rw [View.canon_unit_zero zero_offsets]
  simp only [View.ld_unit_zero (S := S4000x300) zero_offsets, View.ld_unit_zero (S := S1x300) zero_offsets]
  obtain ⟨a0, a1, b0, b1, c0, c1, d0, d1, e0, e1, f0, f1⟩ := block_indices t
  funext j
  have hj0 : (j 0).val < 4000 := (j 0).isLt
  have hj1 : (j 1).val < 300 := (j 1).isLt
  show k1_pay1 (iblk1 V c 0 t) (iblk1 V c 2 t) (iblk1 V c 1 t) (iblk1 V c 3 t) (iblk1 V c 4 t)
        (ix2 (⟨(j 0).val, hj0⟩ : Fin 4000) (⟨(j 1).val, hj1⟩ : Fin 300))
      = Cert.Spec.bn h mu va γ β (((cfg1.win 5).blk t).view.emb j)
  refine body_at_eq_bn h mu va γ β (iblk1 V c 0 t) (iblk1 V c 2 t) (iblk1 V c 1 t) (iblk1 V c 3 t) (iblk1 V c 4 t)
    ⟨(j 0).val, hj0⟩ ⟨(j 1).val, hj1⟩ (((cfg1.win 5).blk t).view.emb j) ?_ ?_ ?_ ?_ ?_ ?_
  · show V c main_v36 (((cfg1.win 0).blk t).view.emb (ix2 (⟨(j 0).val, hj0⟩ : Fin 4000) (⟨(j 1).val, hj1⟩ : Fin 300)))
        = h (((cfg1.win 5).blk t).view.emb j)
    rw [hh]
    refine congrArg h (funext fun a => Fin.ext ?_)
    match a with
    | ⟨0, _⟩ =>
      show win1_0.index t (0 : Fin 2) * 4000 + 1 * (j 0).val = win1_5.index t (0 : Fin 2) * 4000 + 1 * (j 0).val
      omega
    | ⟨1, _⟩ =>
      show win1_0.index t (1 : Fin 2) * 300 + 1 * (j 1).val = win1_5.index t (1 : Fin 2) * 300 + 1 * (j 1).val
      omega
  · show win1_5.index t (1 : Fin 2) * 300 + 1 * (j 1).val = (j 1).val
    omega
  · exact row_read (V c main_v48) mu hmu (((cfg1.win 1).blk t).view.emb (ix2 (0 : Fin 1) (⟨(j 1).val, hj1⟩ : Fin 300)))
      ⟨(j 1).val, hj1⟩ (by show win1_1.index t (1 : Fin 2) * 300 + 1 * (j 1).val = (j 1).val; omega)
  · exact row_read (V c main_v49) va hva (((cfg1.win 2).blk t).view.emb (ix2 (0 : Fin 1) (⟨(j 1).val, hj1⟩ : Fin 300)))
      ⟨(j 1).val, hj1⟩ (by show win1_2.index t (1 : Fin 2) * 300 + 1 * (j 1).val = (j 1).val; omega)
  · exact row_read (V c main_v50) γ hγ (((cfg1.win 3).blk t).view.emb (ix2 (0 : Fin 1) (⟨(j 1).val, hj1⟩ : Fin 300)))
      ⟨(j 1).val, hj1⟩ (by show win1_3.index t (1 : Fin 2) * 300 + 1 * (j 1).val = (j 1).val; omega)
  · exact row_read (V c main_v51) β hβ (((cfg1.win 4).blk t).view.emb (ix2 (0 : Fin 1) (⟨(j 1).val, hj1⟩ : Fin 300)))
      ⟨(j 1).val, hj1⟩ (by show win1_4.index t (1 : Fin 2) * 300 + 1 * (j 1).val = (j 1).val; omega)

/-- An index of the output array is in point `t`'s block iff each coordinate is in the block's range on its axis. -/
theorem mem_out_block (t : Fin cfg1.N) (i : S100000x300.Idx) :
    i ∈ ((cfg1.win 5).blk t).view.set
      ↔ ∀ a : Fin 2, win1_5.index t a * S4000x300.size a ≤ (i a).val
          ∧ (i a).val < win1_5.index t a * S4000x300.size a + S4000x300.size a := by
  show i ∈ ((View.whole main_v52).slice (win1_5.rect t)).set ↔ _
  rw [View.set_slice_whole, Rect.mem_set_unit]
  exact Iff.rfl

/-- THE 25 BLOCKS OF 4000 ROWS COVER THE ARRAY: row `r` is in the block of point `r / 4000`, which writes back. -/
theorem row_blocks_cover (i : S100000x300.Idx) :
    ∃ t : Fin cfg1.N, (cfg1.win 5).flush t = true ∧ i ∈ ((cfg1.win 5).blk t).view.set := by
  have hi0 : (i 0).val < 100000 := (i 0).isLt
  have hi1 : (i 1).val < 300 := (i 1).isLt
  have ht : (i 0).val / 4000 < 25 := by omega
  obtain ⟨-, -, -, -, -, -, -, -, -, -, f0, f1⟩ := block_indices ⟨(i 0).val / 4000, ht⟩
  have f0' : win1_5.index ⟨(i 0).val / 4000, ht⟩ (0 : Fin 2) = (i 0).val / 4000 := f0
  refine ⟨⟨(i 0).val / 4000, ht⟩, flush1_5 _, ?_⟩
  rw [mem_out_block]
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    omega
  | ⟨1, _⟩ =>
    show win1_5.index ⟨(i 0).val / 4000, ht⟩ (1 : Fin 2) * 300 ≤ (i 1).val
      ∧ (i 1).val < win1_5.index ⟨(i 0).val / 4000, ht⟩ (1 : Fin 2) * 300 + 300
    omega

/-- THE OUTPUT ARRAY after the 25 points: every point writes back its block of the column-wise normalisation and the
    blocks cover the array, so the array is the normalisation. -/
theorem arr_bn (V : (c : Dev nD) → (b : Ref sig .tc) → Buf (Elt Ideal) ((c : Thread nD τ).loc b)) (c : Dev nD)
    (h : FVec Ideal S100000x300 .f32) (mu va γ β : FVec Ideal S300 .f32)
    (hh : V c main_v36 = h) (hmu : V c main_v48 = KT.row300 mu) (hva : V c main_v49 = KT.row300 va)
    (hγ : V c main_v50 = KT.row300 γ) (hβ : V c main_v51 = KT.row300 β) :
    (dat1 (F := Ideal) V c).arrAt 5 cfg1.N = Cert.Spec.bn h mu va γ β :=
  (dat1 (F := Ideal) V c).arrAt_eq_of_cover 5 (Cert.Spec.bn h mu va γ β)
    (fun t _ => written_block_eq_bn V c h mu va γ β hh hmu hva hγ hβ t) row_blocks_cover

end Cert.KernelIdeal.KNorm

end
-- ==== Proof.RTerms.lean ====
/-
  The reference program's stages as functions of their operands, each the composition the program's
  statements spell: the two embedding rows looked up and summed per edge, the messages summed onto their
  destination nodes, the two-layer perceptron as two whole-array products, the column mean, the two-pass
  variance (mean of squared deviations from the mean) and the normalised result.
-/
import proofs.«428974_j8160437862943_3_alg».proof.ReferenceIdeal
import proofs.«428974_j8160437862943_3_alg».proof.Proof.Spec

noncomputable section

namespace Cert.ReferenceIdeal.RT

open Idealize.ShloMosaic Cert.ReferenceIdeal

variable {F : FTy → Type} [FloatOps F] [Facts]
open Facts₀ Facts

/-- A negative index counts from the end of an axis of extent `n`. -/
def wrap (n : BitVec 32) (x : IVec S200000 32) : IVec S200000 32 :=
  select (cmpi .slt x (broadcastInDim S200000 ![] bcast_S_S200000 (constantI S_ 32 0#32)))
    (addi x (broadcastInDim S200000 ![] bcast_S_S200000 (constantI S_ 32 n))) x

/-- An index vector as a one-column matrix. -/
def col (x : IVec S200000 32) : IVec S200000x1 32 := broadcastInDim S200000x1 ![0] bcast_S200000_S200000x1_0 x

/-- A vector of 300 repeated on each of the 200000 edges. -/
def perEdge (v : FVec F S300 .f32) : FVec F S200000x300 .f32 :=
  broadcastInDim S200000x300 ![0, 1] bcast_S1x300_S200000x300_0_1 (broadcastInDim S1x300 ![1] bcast_S300_S1x300_1 v)

/-- The embedding row of every edge: `(W0[ef0] + B0) + (W1[ef1] + B1)`. -/
def edgeEmb (ef0 ef1 : IVec S200000 32) (W0 : FVec F S6x300 .f32) (B0 : FVec F S300 .f32) (W1 : FVec F S3x300 .f32)
    (B1 : FVec F S300 .f32) : FVec F S200000x300 .f32 :=
  addf (addf (Host.gather gather_S6x300_S200000x1_S200000x300_1_0_n_n_0_1_1300 W0 (col (wrap 6#32 ef0))) (perEdge B0))
       (addf (Host.gather gather_S3x300_S200000x1_S200000x300_1_0_n_n_0_1_1300 W1 (col (wrap 3#32 ef1))) (perEdge B1))

/-- Each edge's message (its source node's row plus its embedding) summed onto its destination node. -/
def agg (X : FVec F S100000x300 .f32) (src dst : IVec S200000 32) (E : FVec F S200000x300 .f32) : FVec F S100000x300 .f32 :=
  Host.scatterAdd scatter_S100000x300_S200000x1_S200000x300_1_0_0_1
    (broadcastInDim S100000x300 ![] bcast_S_S100000x300 (constant S_ .f32 0x00000000#32))
    (col dst)
    (addf (Host.gather gather_S100000x300_S200000x1_S200000x300_1_0_n_n_0_1_1300 X (col (wrap 100000#32 src))) E)

/-- A vector of 300 repeated on each of the 100000 nodes. -/
def perNode300 (v : FVec F S300 .f32) : FVec F S100000x300 .f32 :=
  broadcastInDim S100000x300 ![0, 1] bcast_S1x300_S100000x300_0_1 (broadcastInDim S1x300 ![1] bcast_S300_S1x300_1 v)

/-- A vector of 600 repeated on each of the 100000 nodes. -/
def perNode600 (v : FVec F S600 .f32) : FVec F S100000x600 .f32 :=
  broadcastInDim S100000x600 ![0, 1] bcast_S1x600_S100000x600_0_1 (broadcastInDim S1x600 ![1] bcast_S600_S1x600_1 v)

/-- The two-layer perceptron as two whole-array products. -/
def mlp (a : FVec F S100000x300 .f32) (M1 : FVec F S300x600 .f32) (c1 : FVec F S600 .f32) (M2 : FVec F S600x300 .f32)
    (c2 : FVec F S300 .f32) : FVec F S100000x300 .f32 :=
  addf (Host.dotGeneral dot_S100000x600_S600x300_S100000x300_1_0_0_1_n_n none
          (maximumf (addf (Host.dotGeneral dot_S100000x300_S300x600_S100000x600_1_0_0_1_n_n none a M1) (perNode600 c1))
            (broadcastInDim S100000x600 ![] bcast_S_S100000x600 (constant S_ .f32 0x00000000#32)))
          M2)
    (perNode300 c2)

/-- The sum of every column. -/
def colSum (h : FVec F S100000x300 .f32) : FVec F S300 .f32 :=
  Host.reduceAdd h (constant S_ .f32 0x00000000#32) reducesTo_S100000x300_S300_d0 h_S_

/-- The number of rows, 100000, in every column's place. -/
def nrows : FVec F S300 .f32 := broadcastInDim S300 ![] bcast_S_S300 (constant S_ .f32 0x47C35000#32)

/-- The mean of every column. -/
def mean (h : FVec F S100000x300 .f32) : FVec F S300 .f32 := Host.divf (colSum h) nrows

/-- The deviations of every entry from its column's mean (the mean recomputed as a one-row matrix). -/
def dev (h : FVec F S100000x300 .f32) : FVec F S100000x300 .f32 :=
  subf h (broadcastInDim S100000x300 ![0, 1] bcast_S1x300_S100000x300_0_1
    (Host.divf (broadcastInDim S1x300 ![1] bcast_S300_S1x300_1 (colSum h))
      (broadcastInDim S1x300 ![] bcast_S_S1x300 (constant S_ .f32 0x47C35000#32))))

/-- The divisor of the variance: the row count less zero degrees of freedom. -/
def dof : FVec F S_ .f32 := subf (constant S_ .f32 0x47C35000#32) (sitofp .f32 (constantI S_ 32 0#32))

/-- The two-pass variance of every column (kept where the divisor is positive, as it is). -/
def var (h : FVec F S100000x300 .f32) : FVec F S300 .f32 :=
  select (broadcastInDim S300 ![] bcast_S_S300 (cmpf .ogt (dof (F := F)) (constant S_ .f32 0x00000000#32)))
    (Host.divf (colSum (mulf (dev h) (dev h))) (broadcastInDim S300 ![] bcast_S_S300 (dof (F := F))))
    (broadcastInDim S300 ![] bcast_S_S300 (id (constant S_ .f32 0x7FC00000#32)))

/-- Column-wise normalisation, scale and shift, as whole-array operations. -/
def norm (h : FVec F S100000x300 .f32) (mu va γ β : FVec F S300 .f32) : FVec F S100000x300 .f32 :=
  addf (mulf (mulf (subf h (perNode300 mu))
                   (perNode300 (Host.rsqrt (addf va (broadcastInDim S300 ![] bcast_S_S300 (constant S_ .f32 0x3727C5AC#32))))))
             (perNode300 γ))
       (perNode300 β)

/-- The reference program's result as a function of its fifteen arguments. -/
def out (X : FVec F S100000x300 .f32) (src dst ef0 ef1 : IVec S200000 32)
    (W0 : FVec F S6x300 .f32) (B0 : FVec F S300 .f32) (W1 : FVec F S3x300 .f32) (B1 : FVec F S300 .f32)
    (M1 : FVec F S300x600 .f32) (c1 : FVec F S600 .f32) (M2 : FVec F S600x300 .f32) (c2 : FVec F S300 .f32)
    (γ β : FVec F S300 .f32) : FVec F S100000x300 .f32 :=
  norm (mlp (agg X src dst (edgeEmb ef0 ef1 W0 B0 W1 B1)) M1 c1 M2 c2)
    (mean (mlp (agg X src dst (edgeEmb ef0 ef1 W0 B0 W1 B1)) M1 c1 M2 c2))
    (var (mlp (agg X src dst (edgeEmb ef0 ef1 W0 B0 W1 B1)) M1 c1 M2 c2)) γ β

end Cert.ReferenceIdeal.RT

end
-- ==== Proof.RefRun.lean ====
import proofs.«428974_j8160437862943_3_alg».proof.Proof.Gen.ReferenceIdeal
import proofs.«428974_j8160437862943_3_alg».proof.Proof.RTerms
import Idealize.ShloMosaic.Lib.StableHlo.Run

noncomputable section

namespace Cert.ReferenceIdeal.RefRun

open Idealize.ShloMosaic Idealize.SL.Sem Cert.ReferenceIdeal Cert.ReferenceIdeal.Gen

variable {F : FTy → Type} [FloatOps F]

section Operations

open Idealize.ShloMosaic.StableHlo Idealize.ShloMosaic.TcCoe

/-- The edge embedding and the aggregation: the three index vectors wrapped and made columns, the three row
    look-ups, the two biases repeated per edge, the sums, and the messages summed onto their destination nodes. -/
abbrev opsA : List (HloOp τ sig (Elt F)) :=
  [ nullary main_c (constantI S_ 32 0#32),
    unary main_c main_v0 (broadcastInDim S200000 ![] bcast_S_S200000),
    binary main_arg3 main_v0 main_v1 (cmpi .slt),
    nullary main_c_0 (constantI S_ 32 6#32),
    unary main_c_0 main_v2 (broadcastInDim S200000 ![] bcast_S_S200000),
    binary main_arg3 main_v2 main_v3 addi,
    ternary main_v1 main_v3 main_arg3 main_v4 select,
    unary main_v4 main_v5 (broadcastInDim S200000x1 ![0] bcast_S200000_S200000x1_0),
    binary main_arg5 main_v5 main_v6 (fun x i => Host.gather gather_S6x300_S200000x1_S200000x300_1_0_n_n_0_1_1300 x i),
    unary main_arg6 main_v7 (broadcastInDim S1x300 ![1] bcast_S300_S1x300_1),
    unary main_v7 main_v8 (broadcastInDim S200000x300 ![0, 1] bcast_S1x300_S200000x300_0_1),
    binary main_v6 main_v8 main_v9 addf,
    nullary main_c_1 (constantI S_ 32 0#32),
    unary main_c_1 main_v10 (broadcastInDim S200000 ![] bcast_S_S200000),
    binary main_arg4 main_v10 main_v11 (cmpi .slt),
    nullary main_c_2 (constantI S_ 32 3#32),
    unary main_c_2 main_v12 (broadcastInDim S200000 ![] bcast_S_S200000),
    binary main_arg4 main_v12 main_v13 addi,
    ternary main_v11 main_v13 main_arg4 main_v14 select,
    unary main_v14 main_v15 (broadcastInDim S200000x1 ![0] bcast_S200000_S200000x1_0),
    binary main_arg7 main_v15 main_v16 (fun x i => Host.gather gather_S3x300_S200000x1_S200000x300_1_0_n_n_0_1_1300 x i),
    unary main_arg8 main_v17 (broadcastInDim S1x300 ![1] bcast_S300_S1x300_1),
    unary main_v17 main_v18 (broadcastInDim S200000x300 ![0, 1] bcast_S1x300_S200000x300_0_1),
    binary main_v16 main_v18 main_v19 addf,
    binary main_v9 main_v19 main_v20 addf,
    nullary main_c_3 (constantI S_ 32 0#32),
    unary main_c_3 main_v21 (broadcastInDim S200000 ![] bcast_S_S200000),
    binary main_arg1 main_v21 main_v22 (cmpi .slt),
    nullary main_c_4 (constantI S_ 32 100000#32),
    unary main_c_4 main_v23 (broadcastInDim S200000 ![] bcast_S_S200000),
    binary main_arg1 main_v23 main_v24 addi,
    ternary main_v22 main_v24 main_arg1 main_v25 select,
    unary main_v25 main_v26 (broadcastInDim S200000x1 ![0] bcast_S200000_S200000x1_0),
    binary main_arg0 main_v26 main_v27 (fun x i => Host.gather gather_S100000x300_S200000x1_S200000x300_1_0_n_n_0_1_1300 x i),
    binary main_v27 main_v20 main_v28 addf,
    nullary main_cst (constant S_ .f32 0x00000000#32),
    unary main_cst main_v29 (broadcastInDim S100000x300 ![] bcast_S_S100000x300),
    unary main_arg2 main_v30 (broadcastInDim S200000x1 ![0] bcast_S200000_S200000x1_0),
    ternary main_v29 main_v30 main_v28 main_v31 (fun x i u => Host.scatterAdd scatter_S100000x300_S200000x1_S200000x300_1_0_0_1 x i u) ]

/-- The two-layer perceptron (the rectifier a called function, its three operations in the call's own buffers)
    and the column means. -/
abbrev opsB : List (HloOp τ sig (Elt F)) :=
  [ binary main_v31 main_arg9 main_v32 (fun l r => Host.dotGeneral dot_S100000x300_S300x600_S100000x600_1_0_0_1_n_n none l r),
    unary main_arg10 main_v33 (broadcastInDim S1x600 ![1] bcast_S600_S1x600_1),
    unary main_v33 main_v34 (broadcastInDim S100000x600 ![0, 1] bcast_S1x600_S100000x600_0_1),
    binary main_v32 main_v34 main_v35 addf,
    TRef.nullary main_call0.cst (constant S_ .f32 0x00000000#32),
    TRef.unary main_call0.cst main_call0.v0 (broadcastInDim S100000x600 ![] bcast_S_S100000x600),
    TRef.binary (.of main_v35) main_call0.v0 main_call0.v1 maximumf,
    binary main_v36 main_arg11 main_v37 (fun l r => Host.dotGeneral dot_S100000x600_S600x300_S100000x300_1_0_0_1_n_n none l r),
    unary main_arg12 main_v38 (broadcastInDim S1x300 ![1] bcast_S300_S1x300_1),
    unary main_v38 main_v39 (broadcastInDim S100000x300 ![0, 1] bcast_S1x300_S100000x300_0_1),
    binary main_v37 main_v39 main_v40 addf,
    nullary main_cst_5 (constant S_ .f32 0x00000000#32),
    binary main_v40 main_cst_5 main_v41 (fun x v => Host.reduceAdd x v reducesTo_S100000x300_S300_d0 h_S_),
    nullary main_cst_6 (constant S_ .f32 0x47C35000#32),
    unary main_cst_6 main_v42 (broadcastInDim S300 ![] bcast_S_S300),
    binary main_v41 main_v42 main_v43 Host.divf,
    nullary main_c_7 (constantI S_ 32 0#32) ]

/-- The two-pass variance, a called function (its nineteen operations and, inside it, the three of the
    selection it calls, each in its call's own buffers). -/
abbrev opsC : List (HloOp τ sig (Elt F)) :=
  [ TRef.nullary main_call1.cst (constant S_ .f32 0x00000000#32),
    TRef.binary (.of main_v40) main_call1.cst main_call1.v0 (fun x v => Host.reduceAdd x v reducesTo_S100000x300_S300_d0 h_S_),
    TRef.unary main_call1.v0 main_call1.v1 (broadcastInDim S1x300 ![1] bcast_S300_S1x300_1),
    TRef.nullary main_call1.cst_0 (constant S_ .f32 0x47C35000#32),
    TRef.unary main_call1.cst_0 main_call1.v2 (broadcastInDim S1x300 ![] bcast_S_S1x300),
    TRef.binary main_call1.v1 main_call1.v2 main_call1.v3 Host.divf,
    TRef.unary main_call1.v3 main_call1.v4 (broadcastInDim S100000x300 ![0, 1] bcast_S1x300_S100000x300_0_1),
    TRef.binary (.of main_v40) main_call1.v4 main_call1.v5 subf,
    TRef.binary main_call1.v5 main_call1.v5 main_call1.v6 mulf,
    TRef.unary (.of main_c_7) main_call1.v7 (sitofp (F := F) .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x300_S300_d0 h_S_),
    TRef.unary main_call1.v8 main_call1.v10 (broadcastInDim S300 ![] bcast_S_S300),
    TRef.binary main_call1.v9 main_call1.v10 main_call1.v11 Host.divf,
    TRef.nullary main_call1.cst_3 (constant S_ .f32 0x00000000#32),
    TRef.binary main_call1.v8 main_call1.cst_3 main_call1.v12 (cmpf (F := F) .ogt),
    TRef.nullary main_call1.cst_4 (constant S_ .f32 0x7FC00000#32),
    TRef.unary main_call1.cst_4 main_call1.call0.v0 id,
    TRef.unary main_call1.call0.v0 main_call1.call0.v1 (broadcastInDim S300 ![] bcast_S_S300),
    TRef.ternary main_call1.v12 main_call1.v11 main_call1.call0.v1 main_call1.call0.v2 (fun p a b => select (broadcastInDim S300 ![] bcast_S_S300 p) a b) ]

/-- The normalisation: the mean and the stabilised inverse deviation repeated on every node, the scale and the shift. -/
abbrev opsD : List (HloOp τ sig (Elt F)) :=
  [ unary main_v43 main_v45 (broadcastInDim S1x300 ![1] bcast_S300_S1x300_1),
    unary main_v45 main_v46 (broadcastInDim S100000x300 ![0, 1] bcast_S1x300_S100000x300_0_1),
    binary main_v40 main_v46 main_v47 subf,
    nullary main_cst_8 (constant S_ .f32 0x3727C5AC#32),
    unary main_cst_8 main_v48 (broadcastInDim S300 ![] bcast_S_S300),
    binary main_v44 main_v48 main_v49 addf,
    unary main_v49 main_v50 Host.rsqrt,
    unary main_v50 main_v51 (broadcastInDim S1x300 ![1] bcast_S300_S1x300_1),
    unary main_v51 main_v52 (broadcastInDim S100000x300 ![0, 1] bcast_S1x300_S100000x300_0_1),
    binary main_v47 main_v52 main_v53 mulf,
    unary main_arg13 main_v54 (broadcastInDim S1x300 ![1] bcast_S300_S1x300_1),
    unary main_v54 main_v55 (broadcastInDim S100000x300 ![0, 1] bcast_S1x300_S100000x300_0_1),
    binary main_v53 main_v55 main_v56 mulf,
    unary main_arg14 main_v57 (broadcastInDim S1x300 ![1] bcast_S300_S1x300_1),
    unary main_v57 main_v58 (broadcastInDim S100000x300 ![0, 1] bcast_S1x300_S100000x300_0_1),
    binary main_v56 main_v58 main_v59 addf ]

/-- The reference program's operations, in order. -/
abbrev ops : List (HloOp τ sig (Elt F)) := opsA ++ (opsB ++ (opsC ++ opsD))

set_option maxRecDepth 4096 in
set_option maxHeartbeats 4000000 in
/-- The program is that straight line: the called functions' bodies unfolded at their calls and the calls'
    records at their fields, both sides are one chain of operation steps once sequencing is reassociated. -/
theorem main_eq (c : Dev nD) : main (F := F) c = seq ops := by
  simp only [main, main_part0, main_part1, fn_relu.body, fn_var.body, fn_where.body, List.cons_append, List.nil_append,
    seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., unary_bufs_sub .., ternary_bufs_sub ..⟩

theorem opsB_sub : (opsB : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub ..⟩

theorem opsC_sub : (opsC : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

theorem opsD_sub : (opsD : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp opsA_sub op h, List.forall_iff_forall_mem.mp opsB_sub op h,
      List.forall_iff_forall_mem.mp opsC_sub op h, List.forall_iff_forall_mem.mp opsD_sub op h]

attribute [local irreducible] Host.gather in
set_option maxRecDepth 8192 in
set_option maxHeartbeats 4000000 in
/-- The fold read at the result buffer is the composed term of the fifteen arguments: the fold unrolled, each
    operation's result read at its own buffer and passed over at every other, what is left is the stages'
    composition spelt out, equal by unfolding the stages' definitions. -/
theorem out_eq (V : Valuation τ sig (Elt F)) :
    after ops V (main_v59 : DevRef τ sig) = RT.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  simp only [ops, opsA, opsB, opsC, opsD, List.cons_append, List.nil_append]
  after_results_simp
  rfl

/-- References of different indices are different. -/
theorem not_mem_single {r y : Ref sig .tc} (hr : r.idx.val < 15) (hy : 15 ≤ y.idx.val) :
    (Proc.devRef .tc r : DevRef τ sig) ∉ ({Proc.devRef .tc y} : Finset (DevRef τ sig)) := fun hm =>
  absurd (congrArg (fun b : Ref sig .tc => b.idx.val) (Proc.devRef_injective _ (Finset.mem_singleton.mp hm))) (by omega)

/-- No operation writes an argument: the arguments are the first fifteen buffers, and every operation's result
    buffer comes after them. -/
theorem keep {r : Ref sig .tc} (hr : r.idx.val < 15) :
    ∀ op ∈ (ops : List (HloOp τ sig (Elt F))), (Proc.devRef .tc r : DevRef τ sig) ∉ op.writes := by
  intro op h
  repeat (cases h with | head => exact not_mem_single hr (by decide) | tail _ h => ?_)
  exact nomatch h

/-- An argument's buffer holds after the line what it held before. -/
theorem arg_eq {r : Ref sig .tc} (hr : r.idx.val < 15) (V : Valuation τ sig (Elt F)) :
    after ops V (r : DevRef τ sig) = V (r : DevRef τ sig) :=
  after_of_forall_not_mem ops V (keep hr)

/-- From any memory with zero counters every weakly fair execution terminates, each TensorCore buffer at the
    operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Operations

/-- From any memory with zero counters every weakly fair execution of the reference program terminates, the
    result buffer at the stages' composition of the launch memory's fifteen argument arrays and the arguments
    unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v59) = RT.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  exact (θ_run defs _ _).mono (fun _ h c =>
      ⟨(h c main_v59).trans (out_eq _),
        (h c main_arg0).trans (arg_eq (by decide) _),
        (h c main_arg1).trans (arg_eq (by decide) _),
        (h c main_arg2).trans (arg_eq (by decide) _),
        (h c main_arg3).trans (arg_eq (by decide) _),
        (h c main_arg4).trans (arg_eq (by decide) _),
        (h c main_arg5).trans (arg_eq (by decide) _),
        (h c main_arg6).trans (arg_eq (by decide) _),
        (h c main_arg7).trans (arg_eq (by decide) _),
        (h c main_arg8).trans (arg_eq (by decide) _),
        (h c main_arg9).trans (arg_eq (by decide) _),
        (h c main_arg10).trans (arg_eq (by decide) _),
        (h c main_arg11).trans (arg_eq (by decide) _),
        (h c main_arg12).trans (arg_eq (by decide) _),
        (h c main_arg13).trans (arg_eq (by decide) _),
        (h c main_arg14).trans (arg_eq (by decide) _)⟩)
    (run_all m ρ)

end Cert.ReferenceIdeal.RefRun

end
-- ==== Proof.RefValue.lean ====
/-
  The reference program's two whole-array stages, read index by index over the extended reals.

  The perceptron is two matrix products with a bias row added to each and a maximum with zero between them; at
  (r, q) a product is the sum over its contracted coordinate of the products of the entries, a bias row repeated
  on every node is the bias at the column, and the zero splat is zero: together the specification's
  `Σ_{k₂} max(Σ_{k₁} a[r, k₁]·M₁[k₁, k₂] + c₁[k₂], 0)·M₂[k₂, q] + c₂[q]`. The normalisation is pointwise once
  each per-column vector repeated on every node is read at its column.
-/
import proofs.«428974_j8160437862943_3_alg».proof.Proof.Gen.ReferenceIdeal
import proofs.«428974_j8160437862943_3_alg».proof.Proof.RTerms
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.IdealHost

noncomputable section

namespace Cert.ReferenceIdeal.RefValue

open Idealize.ShloMosaic Idealize.ShloMosaic.ValueIdx Cert.ReferenceIdeal Cert.ReferenceIdeal.Gen

/-! Row broadcasts read at an index. -/

/-- A vector of 300 as a one-row matrix, read at (0, t). -/
theorem row300_apply {α : Type} (h : S300.BroadcastsInDim S1x300 ![1]) (v : S300.Idx → α) (t : Fin 300) :
    broadcastInDim S1x300 ![1] h v (ix2 (0 : Fin 1) t) = v (ix1 t) := by
  refine broadcastInDim_apply ![1] h v (ix2 (0 : Fin 1) t) (ix1 t) ?_
  intro a
  match a with
  | ⟨0, _⟩ => rfl

/-- A vector of 600 as a one-row matrix, read at (0, t). -/
theorem row600_apply {α : Type} (h : S600.BroadcastsInDim S1x600 ![1]) (v : S600.Idx → α) (t : Fin 600) :
    broadcastInDim S1x600 ![1] h v (ix2 (0 : Fin 1) t) = v (ix1 t) := by
  refine broadcastInDim_apply ![1] h v (ix2 (0 : Fin 1) t) (ix1 t) ?_
  intro a
  match a with
  | ⟨0, _⟩ => rfl

/-- A vector of 300 repeated on every node, read at (r, q), is the vector at q. -/
theorem perNode300_apply (v : FVec Ideal S300 .f32) (r : Fin 100000) (q : Fin 300) :
    RT.perNode300 (F := Ideal) v (ix2 r q) = v (ix1 q) := by
  unfold RT.perNode300
  rw [broadcastInDim_oneRow_apply, row300_apply]

/-- A vector of 600 repeated on every node, read at (r, q), is the vector at q. -/
theorem perNode600_apply (v : FVec Ideal S600 .f32) (r : Fin 100000) (q : Fin 600) :
    RT.perNode600 (F := Ideal) v (ix2 r q) = v (ix1 q) := by
  unfold RT.perNode600
  rw [broadcastInDim_oneRow_apply, row600_apply]

/-- The reciprocal square root of a vector of 300, read at q. -/
theorem rsqrt300_apply (x : FVec Ideal S300 .f32) (q : Fin 300) :
    Host.rsqrt (F := Ideal) x (ix1 q) = Ideal.rsqrt (x (ix1 q)) := rfl

/-! The operand indices of the product S100000x300 × S300x600, axis by axis. -/

theorem lhs_d1_0 (j : S100000x600.Idx) (k : dot_S100000x300_S300x600_S100000x600_1_0_0_1_n_n.contr.Idx) :
    (dot_S100000x300_S300x600_S100000x600_1_0_0_1_n_n.lhsIdx j k 0).val = (j 0).val := by
  unfold DotDims.lhsIdx
  rw [dif_neg (show ¬(0 : Fin S100000x300.rank) ∈ dot_S100000x300_S300x600_S100000x600_1_0_0_1_n_n.lhsBatch by decide),
    dif_pos (show (0 : Fin S100000x300.rank) ∈ dot_S100000x300_S300x600_S100000x600_1_0_0_1_n_n.lhsNonContracting by decide)]
  rfl

theorem lhs_d1_1 (j : S100000x600.Idx) (k : dot_S100000x300_S300x600_S100000x600_1_0_0_1_n_n.contr.Idx) :
    (dot_S100000x300_S300x600_S100000x600_1_0_0_1_n_n.lhsIdx j k 1).val = (k ⟨0, by decide⟩).val :=
  dot_S100000x300_S300x600_S100000x600_1_0_0_1_n_n.lhsIdx_val_of_single (cl := 1) rfl j k

theorem rhs_d1_0 (j : S100000x600.Idx) (k : dot_S100000x300_S300x600_S100000x600_1_0_0_1_n_n.contr.Idx) :
    (dot_S100000x300_S300x600_S100000x600_1_0_0_1_n_n.rhsIdx j k 0).val = (k ⟨0, by decide⟩).val :=
  dot_S100000x300_S300x600_S100000x600_1_0_0_1_n_n.rhsIdx_val_of_single (cr := 0) rfl j k

theorem rhs_d1_1 (j : S100000x600.Idx) (k : dot_S100000x300_S300x600_S100000x600_1_0_0_1_n_n.contr.Idx) :
    (dot_S100000x300_S300x600_S100000x600_1_0_0_1_n_n.rhsIdx j k 1).val = (j 1).val := by
  unfold DotDims.rhsIdx
  rw [dif_neg (show ¬(1 : Fin S300x600.rank) ∈ dot_S100000x300_S300x600_S100000x600_1_0_0_1_n_n.rhsBatch by decide),
    dif_pos (show (1 : Fin S300x600.rank) ∈ dot_S100000x300_S300x600_S100000x600_1_0_0_1_n_n.rhsNonContracting by decide)]
  rfl

/-- The product S100000x300 × S300x600 read at (r, c): the sum over the contracted coordinate of the products of the entries. -/
theorem dot_d1_apply (A : FVec Ideal S100000x300 .f32) (B : FVec Ideal S300x600 .f32) (r : Fin 100000) (c : Fin 600) :
    Host.dotGeneral (F := Ideal) dot_S100000x300_S300x600_S100000x600_1_0_0_1_n_n none A B (ix2 r c) = ∑ k : Fin 300, A (ix2 r k) * B (ix2 k c) := by
  simp only [Host.dotGeneral]
  rw [Ideal.dotGeneral_apply, ← Equiv.sum_comp (contrEquiv1 dot_S100000x300_S300x600_S100000x600_1_0_0_1_n_n 300 rfl rfl).symm]
  refine Finset.sum_congr rfl fun k _ => ?_
  have hk := contrEquiv1_symm_val dot_S100000x300_S300x600_S100000x600_1_0_0_1_n_n 300 rfl rfl k
  have hl : dot_S100000x300_S300x600_S100000x600_1_0_0_1_n_n.lhsIdx (ix2 r c) ((contrEquiv1 dot_S100000x300_S300x600_S100000x600_1_0_0_1_n_n 300 rfl rfl).symm k) = ix2 r k := by
    funext ax; apply Fin.ext
    match ax with
    | ⟨0, _⟩ => exact lhs_d1_0 _ _
    | ⟨1, _⟩ => exact (lhs_d1_1 _ _).trans hk
  have hr : dot_S100000x300_S300x600_S100000x600_1_0_0_1_n_n.rhsIdx (ix2 r c) ((contrEquiv1 dot_S100000x300_S300x600_S100000x600_1_0_0_1_n_n 300 rfl rfl).symm k) = ix2 k c := by
    funext ax; apply Fin.ext
    match ax with
    | ⟨0, _⟩ => exact (rhs_d1_0 _ _).trans hk
    | ⟨1, _⟩ => exact rhs_d1_1 _ _
  rw [hl, hr]

/-! The operand indices of the product S100000x600 × S600x300, axis by axis. -/

theorem lhs_d2_0 (j : S100000x300.Idx) (k : dot_S100000x600_S600x300_S100000x300_1_0_0_1_n_n.contr.Idx) :
    (dot_S100000x600_S600x300_S100000x300_1_0_0_1_n_n.lhsIdx j k 0).val = (j 0).val := by
  unfold DotDims.lhsIdx
  rw [dif_neg (show ¬(0 : Fin S100000x600.rank) ∈ dot_S100000x600_S600x300_S100000x300_1_0_0_1_n_n.lhsBatch by decide),
    dif_pos (show (0 : Fin S100000x600.rank) ∈ dot_S100000x600_S600x300_S100000x300_1_0_0_1_n_n.lhsNonContracting by decide)]
  rfl

theorem lhs_d2_1 (j : S100000x300.Idx) (k : dot_S100000x600_S600x300_S100000x300_1_0_0_1_n_n.contr.Idx) :
    (dot_S100000x600_S600x300_S100000x300_1_0_0_1_n_n.lhsIdx j k 1).val = (k ⟨0, by decide⟩).val :=
  dot_S100000x600_S600x300_S100000x300_1_0_0_1_n_n.lhsIdx_val_of_single (cl := 1) rfl j k

theorem rhs_d2_0 (j : S100000x300.Idx) (k : dot_S100000x600_S600x300_S100000x300_1_0_0_1_n_n.contr.Idx) :
    (dot_S100000x600_S600x300_S100000x300_1_0_0_1_n_n.rhsIdx j k 0).val = (k ⟨0, by decide⟩).val :=
  dot_S100000x600_S600x300_S100000x300_1_0_0_1_n_n.rhsIdx_val_of_single (cr := 0) rfl j k

theorem rhs_d2_1 (j : S100000x300.Idx) (k : dot_S100000x600_S600x300_S100000x300_1_0_0_1_n_n.contr.Idx) :
    (dot_S100000x600_S600x300_S100000x300_1_0_0_1_n_n.rhsIdx j k 1).val = (j 1).val := by
  unfold DotDims.rhsIdx
  rw [dif_neg (show ¬(1 : Fin S600x300.rank) ∈ dot_S100000x600_S600x300_S100000x300_1_0_0_1_n_n.rhsBatch by decide),
    dif_pos (show (1 : Fin S600x300.rank) ∈ dot_S100000x600_S600x300_S100000x300_1_0_0_1_n_n.rhsNonContracting by decide)]
  rfl

/-- The product S100000x600 × S600x300 read at (r, c): the sum over the contracted coordinate of the products of the entries. -/
theorem dot_d2_apply (A : FVec Ideal S100000x600 .f32) (B : FVec Ideal S600x300 .f32) (r : Fin 100000) (c : Fin 300) :
    Host.dotGeneral (F := Ideal) dot_S100000x600_S600x300_S100000x300_1_0_0_1_n_n none A B (ix2 r c) = ∑ k : Fin 600, A (ix2 r k) * B (ix2 k c) := by
  simp only [Host.dotGeneral]
  rw [Ideal.dotGeneral_apply, ← Equiv.sum_comp (contrEquiv1 dot_S100000x600_S600x300_S100000x300_1_0_0_1_n_n 600 rfl rfl).symm]
  refine Finset.sum_congr rfl fun k _ => ?_
  have hk := contrEquiv1_symm_val dot_S100000x600_S600x300_S100000x300_1_0_0_1_n_n 600 rfl rfl k
  have hl : dot_S100000x600_S600x300_S100000x300_1_0_0_1_n_n.lhsIdx (ix2 r c) ((contrEquiv1 dot_S100000x600_S600x300_S100000x300_1_0_0_1_n_n 600 rfl rfl).symm k) = ix2 r k := by
    funext ax; apply Fin.ext
    match ax with
    | ⟨0, _⟩ => exact lhs_d2_0 _ _
    | ⟨1, _⟩ => exact (lhs_d2_1 _ _).trans hk
  have hr : dot_S100000x600_S600x300_S100000x300_1_0_0_1_n_n.rhsIdx (ix2 r c) ((contrEquiv1 dot_S100000x600_S600x300_S100000x300_1_0_0_1_n_n 600 rfl rfl).symm k) = ix2 k c := by
    funext ax; apply Fin.ext
    match ax with
    | ⟨0, _⟩ => exact (rhs_d2_0 _ _).trans hk
    | ⟨1, _⟩ => exact rhs_d2_1 _ _
  rw [hl, hr]

/-- The two-layer perceptron as whole-array products is the specification's perceptron, index by index. -/
theorem mlp_eq (a : FVec Ideal S100000x300 .f32) (M1 : FVec Ideal S300x600 .f32) (c1 : FVec Ideal S600 .f32)
    (M2 : FVec Ideal S600x300 .f32) (c2 : FVec Ideal S300 .f32) :
    RT.mlp (F := Ideal) a M1 c1 M2 c2 = Cert.Spec.mlp a M1 c1 M2 c2 := by
  funext i
  obtain ⟨r, q, rfl⟩ : ∃ (r : Fin 100000) (q : Fin 300), i = ix2 r q := ⟨i 0, i 1, eq_ix2 i⟩
  unfold RT.mlp Cert.Spec.mlp
  rw [addf_apply, perNode300_apply, dot_d2_apply]
  refine congrArg (· + c2 (ix1 q)) (Finset.sum_congr rfl fun k2 _ => ?_)
  rw [maximumf_apply, addf_apply, dot_d1_apply, perNode600_apply, broadcastInDim_scalar_apply, constant_apply,
    Ideal.ofBits_zero_f32]
  rfl

/-- The whole-array normalisation is the specification's column-wise normalisation, index by index. -/
theorem norm_eq (h : FVec Ideal S100000x300 .f32) (mu va γ β : FVec Ideal S300 .f32) :
    RT.norm (F := Ideal) h mu va γ β = Cert.Spec.bn h mu va γ β := by
  funext i
  obtain ⟨r, q, rfl⟩ : ∃ (r : Fin 100000) (q : Fin 300), i = ix2 r q := ⟨i 0, i 1, eq_ix2 i⟩
  unfold RT.norm Cert.Spec.bn
  rw [addf_apply, mulf_apply, mulf_apply, subf_apply, perNode300_apply, perNode300_apply, perNode300_apply,
    perNode300_apply, rsqrt300_apply, addf_apply, broadcastInDim_scalar_apply, constant_apply]
  rfl

end Cert.ReferenceIdeal.RefValue

end
-- ==== Proof.EdgeEmb.lean ====
/-
  The edge embedding, kernel against reference. The kernel builds the eighteen-row table whose row 3a + b is
  ((W0[a] + W1[b]) + B0) + B1 and reads, per edge, the row 3·ef0 + ef1 (cut to [0, 17], a negative index counted from the
  end, the start clamped into the table); the reference reads row ef0 of W0 and row ef1 of W1 and adds the bias rows,
  (W0[ef0] + B0) + (W1[ef1] + B1). For features in range (0 ≤ ef0 < 6, 0 ≤ ef1 < 3) every cut, wrap and clamp is the
  identity and 3·ef0 + ef1 does not overflow, so index by index both are the same four extended reals, summed in two
  orders; addition of extended reals is commutative and associative.
-/
import proofs.«428974_j8160437862943_3_alg».proof.Proof.Gen.KernelIdeal
import proofs.«428974_j8160437862943_3_alg».proof.Proof.Gen.ReferenceIdeal
import proofs.«428974_j8160437862943_3_alg».proof.Proof.KTerms
import proofs.«428974_j8160437862943_3_alg».proof.Proof.RTerms
import Idealize.ShloMosaic.Lib.ValueIdx
import Idealize.ShloMosaic.Lib.Pipeline.Value
import Idealize.ShloMosaic.Lib.ValueLayout

noncomputable section

namespace Cert.Bridge.EdgeEmb

open Idealize.ShloMosaic Idealize.ShloMosaic.ValueIdx

/-- The dimension numbers of a gather of whole rows: operand [N, C], one start index per result row (a column [R, 1]),
    the row axis collapsed and start-indexed, the column axis the one offset axis. -/
abbrev rowDims (N R C : Nat) (sb : List (Fin 2)) (ss : Fin 2 → Nat)
    (wf : GatherDims.WF ⟨2, ![N, C]⟩ ⟨2, ![R, 1]⟩ ⟨2, ![R, C]⟩ [1] [0] [] [0] sb 1 ss) :
    GatherDims ⟨2, ![N, C]⟩ ⟨2, ![R, 1]⟩ ⟨2, ![R, C]⟩ where
  offsetDims := [1]
  collapsedSliceDims := [0]
  operandBatchingDims := []
  startIndicesBatchingDims := sb
  startIndexMap := [0]
  indexVectorDim := 1
  sliceSizes := ss
  wf := wf

/-- A gather of whole rows read at (e, j): the operand at (row, j), the row being start index e read signed and clamped
    into [0, N − 1]. -/
theorem gather_rowDims {α : Type} {N R C w : Nat} (hN : 0 < N) (sb : List (Fin 2)) (ss : Fin 2 → Nat)
    (wf : GatherDims.WF ⟨2, ![N, C]⟩ ⟨2, ![R, 1]⟩ ⟨2, ![R, C]⟩ [1] [0] [] [0] sb 1 ss)
    (x : (⟨2, ![N, C]⟩ : Shape).Idx → α) (idx : IVec ⟨2, ![R, 1]⟩ w) (e : Fin R) (j : Fin C) :
    Host.gather (rowDims N R C sb ss wf) x idx (ix2 e j)
      = x (ix2 (⟨min (idx (ix2 e (0 : Fin 1))).toInt.toNat (N - 1), by omega⟩ : Fin N) j) := by
  unfold Host.gather
  congr 1
  funext a
  refine Fin.ext ?_
  match a with
  | ⟨0, _⟩ =>
    show (rowDims N R C sb ss wf).start (ix2 e j) idx 0 + (rowDims N R C sb ss wf).batchCoord (ix2 e j) 0
      + (rowDims N R C sb ss wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C sb ss wf).startIndexMap from List.mem_singleton.mpr rfl)]
    have hsl : ss 0 = 1 := (rowDims N R C sb ss wf).slice_collapsed 0 (List.mem_singleton.mpr rfl)
    have hsi : (rowDims N R C sb ss wf).siIdx (ix2 e j) ⟨List.idxOf (0 : Fin 2) (rowDims N R C sb ss wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    show min _ (N - ss 0) = _
    rw [hsl]
  | ⟨1, _⟩ =>
    show (rowDims N R C sb ss wf).start (ix2 e j) idx 1 + (rowDims N R C sb ss wf).batchCoord (ix2 e j) 1
      + (rowDims N R C sb ss wf).offCoord (ix2 e j) 1 = j.val
    rw [GatherDims.batchCoord_eq_zero _ _ _ List.not_mem_nil]
    unfold GatherDims.start
    rw [dif_neg (fun h => absurd (congrArg Fin.val (List.mem_singleton.mp h)) Nat.one_ne_zero)]
    unfold GatherDims.offCoord
    rw [dif_pos ((GatherDims.mem_sKept _ _).mpr ⟨fun h => absurd (congrArg Fin.val (List.mem_singleton.mp h)) Nat.one_ne_zero,
      List.not_mem_nil⟩)]
    simp only [Nat.zero_add]
    rfl

/-- The same for any record with those dimension numbers, the row named: result element (e, j) is the operand at (r, j)
    when the clamped start index of e is r. -/
theorem gather_row {α : Type} {N R C w : Nat} (hN : 0 < N)
    (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (e : Fin R) (j : Fin C) (r : Fin N)
    (hr : min (idx (ix2 e (0 : Fin 1))).toInt.toNat (N - 1) = r.val) :
    Host.gather d x idx (ix2 e j) = x (ix2 r j) := by
  obtain ⟨od, cd, ob, sb, sim, ivd, ss, wf⟩ := d
  simp only at hoff hcoll hob hsim hivd
  subst hoff hcoll hob hsim hivd
  exact (gather_rowDims hN sb ss wf x idx e j).trans (congrArg (fun q : Fin N => x (ix2 q j)) (Fin.ext hr))

/-- A 32-bit word whose signed value lies in [0, n) is one of the words 0, …, n − 1. -/
theorem word_of_range (x : BitVec 32) (n : Nat) (hn : n ≤ 2 ^ 31) (h : 0 ≤ x.toInt ∧ x.toInt < n) :
    ∃ k : Nat, k < n ∧ x = BitVec.ofNat 32 k := by
  refine ⟨x.toNat, ?_, by simp⟩
  have hx := x.isLt
  rw [BitVec.toInt_eq_toNat_cond] at h
  split at h <;> omega

/-- The three row numbers. For feature words a in [0, 6) and b in [0, 3): counting a negative index from the end does
    nothing to either, the clamp into the six (three) rows does nothing, and the kernel's 3·a + b neither overflows,
    nor is cut by the bounds 0 and 17, nor is counted from the end, nor clamped into the eighteen rows. -/
theorem rows (a b : BitVec 32) (ha : 0 ≤ a.toInt ∧ a.toInt < 6) (hb : 0 ≤ b.toInt ∧ b.toInt < 3) :
    ∃ (k : Fin 6) (l : Fin 3),
      min (Scalar.select (IntOp.cmpi .slt a 0#32) (IntOp.addi a 6#32) a).toInt.toNat (6 - 1) = k.val ∧
      min (Scalar.select (IntOp.cmpi .slt b 0#32) (IntOp.addi b 3#32) b).toInt.toNat (3 - 1) = l.val ∧
      min (Scalar.select
            (IntOp.cmpi .slt (IntOp.minsi 17#32 (IntOp.maxsi 0#32 (IntOp.addi (IntOp.muli a 3#32) b))) 0#32)
            (IntOp.addi (IntOp.minsi 17#32 (IntOp.maxsi 0#32 (IntOp.addi (IntOp.muli a 3#32) b))) 18#32)
            (IntOp.minsi 17#32 (IntOp.maxsi 0#32 (IntOp.addi (IntOp.muli a 3#32) b)))).toInt.toNat (18 - 1)
        = 3 * k.val + l.val := by
  obtain ⟨k, hk, rfl⟩ := word_of_range a 6 (by norm_num) ha
  obtain ⟨l, hl, rfl⟩ := word_of_range b 3 (by norm_num) hb
  refine ⟨⟨k, hk⟩, ⟨l, hl⟩, ?_⟩
  show min _ _ = k ∧ min _ _ = l ∧ min _ _ = 3 * k + l
  clear ha hb
  interval_cases k <;> interval_cases l <;> decide

/-- Index by index both embeddings are W0[ef0, j] + W1[ef1, j] + B0[j] + B1[j], summed in two orders. -/
theorem edgeEmb_eq (ef0 ef1 : IVec ⟨1, ![200000]⟩ 32)
    (W0 : FVec Ideal ⟨2, ![6, 300]⟩ .f32) (B0 : FVec Ideal ⟨1, ![300]⟩ .f32)
    (W1 : FVec Ideal ⟨2, ![3, 300]⟩ .f32) (B1 : FVec Ideal ⟨1, ![300]⟩ .f32)
    (h0 : ∀ e, 0 ≤ (ef0 e).toInt ∧ (ef0 e).toInt < 6) (h1 : ∀ e, 0 ≤ (ef1 e).toInt ∧ (ef1 e).toInt < 3) :
    Cert.KernelIdeal.KT.edgeEmb (F := Ideal) ef0 ef1 W0 B0 W1 B1
      = Cert.ReferenceIdeal.RT.edgeEmb (F := Ideal) ef0 ef1 W0 B0 W1 B1 := by
  funext i
  obtain ⟨e, j, rfl⟩ : ∃ (e : Fin 200000) (j : Fin 300), i = ix2 e j := ⟨i 0, i 1, eq_ix2 i⟩
  obtain ⟨k, l, hk, hl, hkl⟩ := rows (ef0 (ix1 e)) (ef1 (ix1 e)) (h0 _) (h1 _)
  -- an index vector as a one-column matrix reads, in row e, the vector at e
  have hcolK : ∀ x : IVec ⟨1, ![200000]⟩ 32, Cert.KernelIdeal.KT.col x (ix2 e (0 : Fin 1)) = x (ix1 e) := fun x =>
    broadcastInDim_apply _ _ x (ix2 e (0 : Fin 1)) (ix1 e) (fun a => by match a with | ⟨0, _⟩ => rfl)
  have hcolR : ∀ x : IVec ⟨1, ![200000]⟩ 32, Cert.ReferenceIdeal.RT.col x (ix2 e (0 : Fin 1)) = x (ix1 e) := fun x =>
    broadcastInDim_apply _ _ x (ix2 e (0 : Fin 1)) (ix1 e) (fun a => by match a with | ⟨0, _⟩ => rfl)
  -- the kernel's side: row 3k + l of the table, which is entry (k, l) of the [6, 3, 300] sum
  have hK : Cert.KernelIdeal.KT.edgeEmb (F := Ideal) ef0 ef1 W0 B0 W1 B1 (ix2 e j)
      = ((W0 (ix2 k j) + W1 (ix2 l j)) + B0 (ix1 j)) + B1 (ix1 j) := by
    refine (gather_row (by norm_num) _ rfl rfl rfl rfl rfl _ _ e j ⟨3 * k.val + l.val, by omega⟩ ?_).trans ?_
    · exact (congrArg (fun v : BitVec 32 => min v.toInt.toNat (18 - 1)) (hcolK _)).trans hkl
    · refine (shapeCast_apply _ _ _ (ix3 k l j) ?_).trans ?_
      · rw [Shape.rowMajor_val_three, Shape.rowMajor_val_two]
        show (k.val * 3 + l.val) * 300 + j.val = (3 * k.val + l.val) * 300 + j.val
        omega
      · refine congrArg₂ (· + ·) (congrArg₂ (· + ·) (congrArg₂ (· + ·) ?_ ?_) ?_) ?_
        · exact (broadcastInDim_apply _ _ _ (ix3 k l j) (ix3 k (0 : Fin 1) j)
            (fun a => by match a with | ⟨0, _⟩ => rfl | ⟨1, _⟩ => rfl | ⟨2, _⟩ => rfl)).trans
            (broadcastInDim_apply _ _ W0 (ix3 k (0 : Fin 1) j) (ix2 k j)
              (fun a => by match a with | ⟨0, _⟩ => rfl | ⟨1, _⟩ => rfl))
        · exact (broadcastInDim_apply _ _ _ (ix3 k l j) (ix3 (0 : Fin 1) l j)
            (fun a => by match a with | ⟨0, _⟩ => rfl | ⟨1, _⟩ => rfl | ⟨2, _⟩ => rfl)).trans
            (broadcastInDim_apply _ _ W1 (ix3 (0 : Fin 1) l j) (ix2 l j)
              (fun a => by match a with | ⟨0, _⟩ => rfl | ⟨1, _⟩ => rfl))
        · exact (broadcastInDim_apply _ _ _ (ix3 k l j) (ix3 (0 : Fin 1) (0 : Fin 1) j)
            (fun a => by match a with | ⟨0, _⟩ => rfl | ⟨1, _⟩ => rfl | ⟨2, _⟩ => rfl)).trans
            (broadcastInDim_apply _ _ B0 (ix3 (0 : Fin 1) (0 : Fin 1) j) (ix1 j)
              (fun a => by match a with | ⟨0, _⟩ => rfl))
        · exact (broadcastInDim_apply _ _ _ (ix3 k l j) (ix3 (0 : Fin 1) (0 : Fin 1) j)
            (fun a => by match a with | ⟨0, _⟩ => rfl | ⟨1, _⟩ => rfl | ⟨2, _⟩ => rfl)).trans
            (broadcastInDim_apply _ _ B1 (ix3 (0 : Fin 1) (0 : Fin 1) j) (ix1 j)
              (fun a => by match a with | ⟨0, _⟩ => rfl))
  -- the reference's side: row k of the first table, row l of the second, each with its bias row
  have hrow : ∀ v : FVec Ideal ⟨1, ![300]⟩ .f32, Cert.ReferenceIdeal.RT.perEdge (F := Ideal) v (ix2 e j) = v (ix1 j) := fun v =>
    (broadcastInDim_apply _ _ _ (ix2 e j) (ix2 (0 : Fin 1) j)
      (fun a => by match a with | ⟨0, _⟩ => rfl | ⟨1, _⟩ => rfl)).trans
      (broadcastInDim_apply _ _ v (ix2 (0 : Fin 1) j) (ix1 j) (fun a => by match a with | ⟨0, _⟩ => rfl))
  have hR : Cert.ReferenceIdeal.RT.edgeEmb (F := Ideal) ef0 ef1 W0 B0 W1 B1 (ix2 e j)
      = (W0 (ix2 k j) + B0 (ix1 j)) + (W1 (ix2 l j) + B1 (ix1 j)) := by
    refine congrArg₂ (· + ·) (congrArg₂ (· + ·) ?_ (hrow B0)) (congrArg₂ (· + ·) ?_ (hrow B1))
    · exact gather_row (by norm_num) _ rfl rfl rfl rfl rfl _ _ e j k
        ((congrArg (fun v : BitVec 32 => min v.toInt.toNat (6 - 1)) (hcolR _)).trans hk)
    · exact gather_row (by norm_num) _ rfl rfl rfl rfl rfl _ _ e j l
        ((congrArg (fun v : BitVec 32 => min v.toInt.toNat (3 - 1)) (hcolR _)).trans hl)
  rw [hK, hR, add_assoc, add_add_add_comm]

end Cert.Bridge.EdgeEmb

end
-- ==== Proof.Variance.lean ====
/-
  The one-pass and the two-pass variance of a column agree on real entries.

  For a column `f : Fin N → ℝ` with sum `S` and mean `μ = S / N`, the kernel program computes
  `max(Σ f² / N − μ², 0)` and the reference program computes `Σ (f − μ)² / N` (kept because its divisor `N − 0` is
  positive). Each stage of either program is read at an index as the coercion of a real number: a sum over the rows
  is the initial value zero plus the `Fin`-indexed sum of the column, a division by the real `N = 100000` is the
  product with `1 / N`, and the coercion of the reals into the extended reals commutes with sums, products and
  differences. The real identity `Σ (f − μ)² / N = Σ f² / N − μ²` then closes the comparison, and the cut-off at zero
  is idle because a mean of squares is not negative.
-/
import proofs.«428974_j8160437862943_3_alg».proof.Proof.Gen.KernelIdeal
import proofs.«428974_j8160437862943_3_alg».proof.Proof.Gen.ReferenceIdeal
import proofs.«428974_j8160437862943_3_alg».proof.Proof.KTerms
import proofs.«428974_j8160437862943_3_alg».proof.Proof.RTerms
import Idealize.ShloMosaic.PureOps.Ideal.Laws
import Idealize.ShloMosaic.Lib.ValueIdx
import Idealize.ShloMosaic.Lib.IdealHost
import Idealize.ShloMosaic.Lib.KernelVsHost

noncomputable section

namespace Cert.Bridge.Variance

open Idealize.ShloMosaic Idealize.ShloMosaic.ValueIdx

/-- The coercion of reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The mean of squared deviations from the mean is the mean of squares less the squared mean
    (division by the count written as the product with its reciprocal). -/
theorem real_var {n : ℕ} (hn : n ≠ 0) (N : ℝ) (hN : (n : ℝ) = N) (f : Fin n → ℝ) :
    (∑ r, (f r - (∑ r, f r) * (1 / N)) * (f r - (∑ r, f r) * (1 / N))) * (1 / N)
      = (∑ r, f r * f r) * (1 / N) - ((∑ r, f r) * (1 / N)) * ((∑ r, f r) * (1 / N)) := by
  subst hN
  have hn' : (n : ℝ) ≠ 0 := Nat.cast_ne_zero.mpr hn
  set S := ∑ r, f r with hS
  have h1 : ∑ r, (f r - S * (1 / (n : ℝ))) * (f r - S * (1 / (n : ℝ)))
      = (∑ r, f r * f r) - 2 * (S * (1 / (n : ℝ))) * S + (n : ℝ) * ((S * (1 / (n : ℝ))) * (S * (1 / (n : ℝ)))) := by
    have : ∀ r, (f r - S * (1 / (n : ℝ))) * (f r - S * (1 / (n : ℝ)))
        = f r * f r - 2 * (S * (1 / (n : ℝ))) * f r + (S * (1 / (n : ℝ))) * (S * (1 / (n : ℝ))) := fun r => by ring
    simp only [this]
    rw [Finset.sum_add_distrib, Finset.sum_sub_distrib, ← Finset.mul_sum, Finset.sum_const, Finset.card_univ,
      Fintype.card_fin, nsmul_eq_mul]
  rw [h1]
  field_simp
  ring

/-- The mean of squared deviations is not negative. -/
theorem real_var_nonneg {n : ℕ} (f : Fin n → ℝ) (m N : ℝ) (hN : 0 ≤ N) : 0 ≤ (∑ r, (f r - m) * (f r - m)) * (1 / N) :=
  mul_nonneg (Finset.sum_nonneg fun r _ => mul_self_nonneg _) (by positivity)

/-- The single-precision word `0x47C35000` is the real number 100000. -/
theorem ofBits_nrows : Ideal.ofBits .f32 0x47C35000#32 = ((100000 : ℝ) : EReal) := by
  simp [Ideal.ofBits, Ideal.ieee, -EReal.coe_mul]; norm_num

/-- The host's sum over the rows, started from the zero word, read at a column. -/
theorem reduce_apply (x : FVec Ideal ⟨2, ![100000, 300]⟩ .f32)
    (h' : (⟨2, ![100000, 300]⟩ : Shape).ReducesTo [0] ⟨1, ![300]⟩) (hu : 0 < (⟨0, ![]⟩ : Shape).numel) (q : Fin 300) :
    Host.reduceAdd x (constant ⟨0, ![]⟩ .f32 0x00000000#32) h' hu (ix1 q) = ∑ r : Fin 100000, x (ix2 r q) := by
  have hR : (⟨2, ![100000, 300]⟩ : Shape).Reduces [0] ⟨1, ![300]⟩ := by decide
  rw [hostReduceAdd_apply]
  refine (Ideal.hostReduceAdd_single h' hR x _ _).trans ?_
  rw [constant_apply, Ideal.ofBits_zero_f32, zero_add]
  refine Finset.sum_congr rfl (fun r _ => congrArg x ?_)
  funext a
  match a with
  | ⟨0, _⟩ => rfl
  | ⟨1, _⟩ => rfl

section Stages
variable (h : FVec Ideal ⟨2, ![100000, 300]⟩ .f32) (g : (⟨2, ![100000, 300]⟩ : Shape).Idx → ℝ)
  (hg : ∀ i, h i = ((g i : ℝ) : EReal)) (q : Fin 300)
include hg

/-- A column's sum, in the kernel program, is the real sum of the column. -/
theorem k_colSum : Cert.KernelIdeal.KT.colSum (F := Ideal) h (ix1 q) = ((∑ r : Fin 100000, g (ix2 r q) : ℝ) : EReal) := by
  unfold Cert.KernelIdeal.KT.colSum
  refine (reduce_apply h _ _ q).trans ?_
  rw [coe_sum]
  exact Finset.sum_congr rfl (fun r _ => hg _)

/-- A column's sum of squares, in the kernel program. -/
theorem k_colSumSq : Cert.KernelIdeal.KT.colSum (F := Ideal) (mulf h h) (ix1 q)
    = ((∑ r : Fin 100000, g (ix2 r q) * g (ix2 r q) : ℝ) : EReal) := by
  unfold Cert.KernelIdeal.KT.colSum
  refine (reduce_apply (mulf h h) _ _ q).trans ?_
  rw [coe_sum]
  refine Finset.sum_congr rfl (fun r _ => ?_)
  rw [mulf_apply, hg, EReal.coe_mul]

omit hg in
/-- The row count, in the kernel program. -/
theorem k_nrows : Cert.KernelIdeal.KT.nrows (F := Ideal) (ix1 q) = ((100000 : ℝ) : EReal) := by
  unfold Cert.KernelIdeal.KT.nrows
  rw [broadcastInDim_scalar_apply, constant_apply, ofBits_nrows]

/-- A column's mean, in the kernel program. -/
theorem k_mean : Cert.KernelIdeal.KT.mean (F := Ideal) h (ix1 q)
    = (((∑ r : Fin 100000, g (ix2 r q)) * (1 / (100000 : ℝ)) : ℝ) : EReal) := by
  unfold Cert.KernelIdeal.KT.mean
  rw [hostDivf_apply, k_colSum h g hg q, k_nrows q, Ideal.div_coe (by norm_num), ← EReal.coe_mul]

/-- A column's one-pass variance, in the kernel program, before the cut-off at zero is resolved. -/
theorem k_var : Cert.KernelIdeal.KT.var (F := Ideal) h (ix1 q)
    = max (((∑ r : Fin 100000, g (ix2 r q) * g (ix2 r q)) * (1 / (100000 : ℝ))
        - ((∑ r : Fin 100000, g (ix2 r q)) * (1 / (100000 : ℝ))) * ((∑ r : Fin 100000, g (ix2 r q)) * (1 / (100000 : ℝ))) : ℝ) : EReal) 0 := by
  unfold Cert.KernelIdeal.KT.var
  rw [maximumf_apply, subf_apply, hostDivf_apply, mulf_apply, k_colSumSq h g hg q, k_nrows q, k_mean h g hg q,
    Ideal.div_coe (by norm_num), ← EReal.coe_mul, ← EReal.coe_mul, ← EReal.coe_sub,
    broadcastInDim_scalar_apply, constant_apply, Ideal.ofBits_zero_f32]

/-- A column's sum, in the reference program. -/
theorem r_colSum : Cert.ReferenceIdeal.RT.colSum (F := Ideal) h (ix1 q) = ((∑ r : Fin 100000, g (ix2 r q) : ℝ) : EReal) := by
  unfold Cert.ReferenceIdeal.RT.colSum
  refine (reduce_apply h _ _ q).trans ?_
  rw [coe_sum]
  exact Finset.sum_congr rfl (fun r _ => hg _)

/-- An entry's deviation from its column's mean, in the reference program. -/
theorem r_dev (r : Fin 100000) : Cert.ReferenceIdeal.RT.dev (F := Ideal) h (ix2 r q)
    = ((g (ix2 r q) - (∑ r : Fin 100000, g (ix2 r q)) * (1 / (100000 : ℝ)) : ℝ) : EReal) := by
  unfold Cert.ReferenceIdeal.RT.dev
  rw [subf_apply, broadcastInDim_oneRow_apply, hostDivf_apply,
    broadcastInDim_apply ![1] _ _ (ix2 (0 : Fin 1) q) (ix1 q) (fun a => by match a with | ⟨0, _⟩ => rfl),
    broadcastInDim_scalar_apply, constant_apply, ofBits_nrows, r_colSum h g hg q, Ideal.div_coe (by norm_num),
    ← EReal.coe_mul, hg, ← EReal.coe_sub]

omit hg in
/-- The divisor of the variance, in the reference program: the row count less zero. -/
theorem r_dof : Cert.ReferenceIdeal.RT.dof (F := Ideal) ix0 = ((100000 : ℝ) : EReal) := by
  unfold Cert.ReferenceIdeal.RT.dof
  rw [subf_apply, constant_apply, sitofp_apply, ofBits_nrows]
  show ((100000 : ℝ) : EReal) - (((0#32 : BitVec 32).toInt : ℝ) : EReal) = _
  rw [← EReal.coe_sub]
  norm_num

/-- A column's two-pass variance, in the reference program. -/
theorem r_var : Cert.ReferenceIdeal.RT.var (F := Ideal) h (ix1 q)
    = (((∑ r : Fin 100000, (g (ix2 r q) - (∑ r : Fin 100000, g (ix2 r q)) * (1 / (100000 : ℝ)))
          * (g (ix2 r q) - (∑ r : Fin 100000, g (ix2 r q)) * (1 / (100000 : ℝ)))) * (1 / (100000 : ℝ)) : ℝ) : EReal) := by
  have hsum : Cert.ReferenceIdeal.RT.colSum (F := Ideal)
      (mulf (Cert.ReferenceIdeal.RT.dev (F := Ideal) h) (Cert.ReferenceIdeal.RT.dev (F := Ideal) h)) (ix1 q)
      = ((∑ r : Fin 100000, (g (ix2 r q) - (∑ r : Fin 100000, g (ix2 r q)) * (1 / (100000 : ℝ)))
          * (g (ix2 r q) - (∑ r : Fin 100000, g (ix2 r q)) * (1 / (100000 : ℝ))) : ℝ) : EReal) := by
    unfold Cert.ReferenceIdeal.RT.colSum
    refine (reduce_apply _ _ _ q).trans ?_
    rw [coe_sum]
    refine Finset.sum_congr rfl (fun r _ => ?_)
    rw [mulf_apply, r_dev h g hg q r, EReal.coe_mul]
  unfold Cert.ReferenceIdeal.RT.var
  rw [select_apply, broadcastInDim_scalar_apply, cmpf_apply, r_dof, constant_apply, Ideal.ofBits_zero_f32,
    hostDivf_apply, hsum, broadcastInDim_scalar_apply, r_dof, Ideal.div_coe (by norm_num), ← EReal.coe_mul]
  have hc : FloatOps.cmpf (F := Ideal) (φ := .f32) .ogt ((100000 : ℝ) : EReal) 0 = 1#1 := by
    rw [Ideal.cmpf_def]
    show BitVec.ofBool (decide ((0 : EReal) < ((100000 : ℝ) : EReal))) = 1#1
    rw [decide_eq_true (EReal.coe_pos.mpr (by norm_num))]
    rfl
  rw [hc, select_one]

end Stages

theorem var_eq (h : FVec Ideal ⟨2, ![100000, 300]⟩ .f32) (hh : Cert.Spec.IsReal h) :
    Cert.KernelIdeal.KT.var (F := Ideal) h = Cert.ReferenceIdeal.RT.var (F := Ideal) h := by
  choose g hg using hh
  funext j
  obtain ⟨q, rfl⟩ : ∃ q : Fin 300, j = ix1 q := ⟨j 0, eq_ix1 j⟩
  rw [k_var h g hg q, r_var h g hg q, ← real_var (n := 100000) (by norm_num) 100000 (by norm_num) (fun r => g (ix2 r q))]
  exact max_eq_left (EReal.coe_nonneg.mpr (real_var_nonneg (fun r => g (ix2 r q)) _ 100000 (by norm_num)))

end Cert.Bridge.Variance

end
-- ==== Proof.Reals.lean ====
import proofs.«428974_j8160437862943_3_alg».proof.Proof.Gen.ReferenceIdeal
import proofs.«428974_j8160437862943_3_alg».proof.Proof.RTerms
import Idealize.ShloMosaic.PureOps.Ideal.Laws
import Idealize.ShloMosaic.Lib.ValueIdx
import Mathlib.Data.EReal.Basic

noncomputable section

namespace Cert.Bridge.Reals

open Idealize.ShloMosaic Idealize.ShloMosaic.ValueIdx Cert.Spec

/-! Closure of the real numbers inside the extended reals under the operations the two programs use:
    sum, product, maximum, finite sums, and reading an array at some index. -/

/-- Zero is a real number. -/
theorem real_zero : ∃ r : ℝ, (0 : EReal) = (r : EReal) := ⟨0, rfl⟩

/-- The sum of two real numbers is a real number. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two real numbers is a real number. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The maximum of two real numbers is one of them, so a real number. -/
theorem real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- A finite sum of real numbers is a real number. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- A sum of two real-valued arrays, entry by entry, is real-valued. -/
theorem isReal_addf {s : Shape} {φ : FTy} {x y : FVec Ideal s φ} (hx : IsReal x) (hy : IsReal y) :
    IsReal (addf x y) := fun i => real_add (hx i) (hy i)

/-- A gather reads the operand at some index: its entries are entries of the operand. -/
theorem isReal_gather {s si t : Shape} {w : Nat} (d : GatherDims s si t) {x : s.Idx → EReal} (idx : IVec si w)
    (hx : IsReal x) : IsReal (Host.gather d x idx) := fun j => hx (d.operandIdx j idx)

/-- A broadcast reads the operand at some index: its entries are entries of the operand. -/
theorem isReal_broadcastInDim {s t : Shape} (dims : Fin s.rank → Fin t.rank) (h : s.BroadcastsInDim t dims)
    {x : s.Idx → EReal} (hx : IsReal x) : IsReal (broadcastInDim t dims h x) := by
  intro j
  unfold broadcastInDim
  exact hx _

/-- The zero splat is real-valued. -/
theorem isReal_zero (s : Shape) : IsReal (constant (F := Ideal) s .f32 0x00000000#32) := by
  intro i
  refine ⟨0, ?_⟩
  show Ideal.ofBits .f32 0x00000000#32 = _
  rw [Ideal.ofBits_zero_f32]; rfl

/-- The exact accumulating scatter of real-valued updates into a real-valued operand is real-valued:
    every entry is the operand's plus a finite sum of updates. -/
theorem isReal_scatterAdd {s si su : Shape} {w : Nat} {φ : FTy} (d : ScatterDims s si su) {x : FVec Ideal s φ}
    (idx : IVec si w) {upd : FVec Ideal su φ} (hx : IsReal x) (hu : IsReal upd) :
    IsReal (Host.scatterAdd d x idx upd) := by
  intro i
  unfold Host.scatterAdd
  rw [Ideal.hostScatterAdd_def]
  unfold Ideal.hostScatterAdd
  exact real_add (hx i) (real_sum _ _ fun j _ => hu j)

theorem isReal_mlp (a : FVec Ideal ⟨2, ![100000, 300]⟩ .f32) (M1 : FVec Ideal ⟨2, ![300, 600]⟩ .f32)
    (c1 : FVec Ideal ⟨1, ![600]⟩ .f32) (M2 : FVec Ideal ⟨2, ![600, 300]⟩ .f32) (c2 : FVec Ideal ⟨1, ![300]⟩ .f32)
    (ha : IsReal a) (hM1 : IsReal M1) (hc1 : IsReal c1) (hM2 : IsReal M2) (hc2 : IsReal c2) :
    IsReal (Cert.Spec.mlp a M1 c1 M2 c2) := by
  intro i
  unfold Cert.Spec.mlp Cert.Spec.hidden
  refine real_add (real_sum _ _ fun k2 _ => real_mul (real_max (real_add (real_sum _ _ fun k1 _ => ?_) (hc1 _)) real_zero) (hM2 _)) (hc2 _)
  exact real_mul (ha _) (hM1 _)

theorem isReal_agg (X : FVec Ideal ⟨2, ![100000, 300]⟩ .f32) (src dst : IVec ⟨1, ![200000]⟩ 32)
    (E : FVec Ideal ⟨2, ![200000, 300]⟩ .f32) (hX : IsReal X) (hE : IsReal E) :
    IsReal (Cert.ReferenceIdeal.RT.agg (F := Ideal) X src dst E) := by
  unfold Cert.ReferenceIdeal.RT.agg
  exact isReal_scatterAdd _ _ (isReal_broadcastInDim _ _ (isReal_zero _))
    (isReal_addf (isReal_gather _ _ hX) hE)

theorem isReal_edgeEmb (ef0 ef1 : IVec ⟨1, ![200000]⟩ 32)
    (W0 : FVec Ideal ⟨2, ![6, 300]⟩ .f32) (B0 : FVec Ideal ⟨1, ![300]⟩ .f32)
    (W1 : FVec Ideal ⟨2, ![3, 300]⟩ .f32) (B1 : FVec Ideal ⟨1, ![300]⟩ .f32)
    (hW0 : IsReal W0) (hB0 : IsReal B0) (hW1 : IsReal W1) (hB1 : IsReal B1) :
    IsReal (Cert.ReferenceIdeal.RT.edgeEmb (F := Ideal) ef0 ef1 W0 B0 W1 B1) := by
  unfold Cert.ReferenceIdeal.RT.edgeEmb Cert.ReferenceIdeal.RT.perEdge
  exact isReal_addf
    (isReal_addf (isReal_gather _ _ hW0) (isReal_broadcastInDim _ _ (isReal_broadcastInDim _ _ hB0)))
    (isReal_addf (isReal_gather _ _ hW1) (isReal_broadcastInDim _ _ (isReal_broadcastInDim _ _ hB1)))

end Cert.Bridge.Reals

end
-- ==== Proof.PreDecode.lean ====
import proofs.«428974_j8160437862943_3_alg».proof.Pre_finite_inputs
import proofs.«428974_j8160437862943_3_alg».proof.Proof.Gen.Pre_finite_inputs
import proofs.«428974_j8160437862943_3_alg».proof.Proof.Spec
import Idealize.ShloMosaic.Lib.ReduceAll
import Idealize.ShloMosaic.Lib.StableHlo.Predicate
import Idealize.ShloMosaic.Lib.ValueIdx

noncomputable section

namespace Cert.Bridge.Pre

open Idealize.ShloMosaic Idealize.ShloMosaic.ValueIdx Cert.Spec Cert.Pre_finite_inputs Cert.Pre_finite_inputs.Gen

/-- The rank-0 shape has a single index. -/
instance subsingleton_scalar_idx : Subsingleton S_.Idx := ⟨fun _ _ => funext fun d => d.elim0⟩

/-- An extended real whose absolute value `max x (-x)` lies strictly below `⊤` is a real number:
    `⊤` itself and `⊥` (whose negation is `⊤`) are excluded. -/
theorem real_of_abs_lt_top (x : EReal) (h : max x (-x) < ⊤) : ∃ r : ℝ, x = (r : EReal) := by
  induction x using EReal.rec with
  | bot => simp at h
  | coe r => exact ⟨r, rfl⟩
  | top => simp at h

/-- The single-precision pattern `0x7F800000` denotes `+∞`. -/
theorem ofBits_inf : Ideal.ofBits .f32 0x7F800000#32 = (⊤ : EReal) := by
  simp [Ideal.ofBits, Ideal.ieee]

/-- `all(|v| < +∞)` read back: the conjunction over all indices of the comparison `|v i| < +∞`
    being one says every entry of `v` is a real number. -/
theorem isReal_of_all {s : Shape} {axes : List (Fin s.rank)} (v : FVec Ideal s .f32)
    (bc : S_.BroadcastsInDim s (![] : Fin 0 → Fin s.rank)) (hr : s.ReducesTo axes S_) (hu : 0 < S_.numel)
    (h : Host.reduce IntOp.andi
          (cmpf .olt (Host.absf v) (broadcastInDim s ![] bc (constant (F := Ideal) S_ .f32 0x7F800000#32)))
          (constantI S_ 1 1#1) hr hu ix0 = 1#1) : IsReal v := by
  intro i
  have hi := Host.reduce_andi_all _ _ hr hu ix0 h i
  have h2 : Ideal.cmp .olt (max (v i) (-(v i))) (Ideal.ofBits .f32 0x7F800000#32) = 1#1 := hi
  rw [ofBits_inf] at h2
  have h3 : max (v i) (-(v i)) < ⊤ := by
    simpa [Ideal.cmp, StableHlo.Predicate.ofBool_eq_one_iff] using h2
  exact real_of_abs_lt_top _ h3

/-- `all(a ≥ c)` read back, signed: every word of `a` is at least the constant. -/
theorem sge_of_all {s : Shape} {axes : List (Fin s.rank)} (a : IVec s 32) (c : BitVec 32)
    (bc : S_.BroadcastsInDim s (![] : Fin 0 → Fin s.rank)) (hr : s.ReducesTo axes S_) (hu : 0 < S_.numel)
    (h : Host.reduce IntOp.andi (cmpi .sge a (broadcastInDim s ![] bc (constantI S_ 32 c)))
          (constantI S_ 1 1#1) hr hu ix0 = 1#1) : ∀ e, c.toInt ≤ (a e).toInt := fun e =>
  IntOp.cmpi_sge.1 (Host.reduce_andi_all _ _ hr hu ix0 h e)

/-- `all(a < c)` read back, signed: every word of `a` is below the constant. -/
theorem slt_of_all {s : Shape} {axes : List (Fin s.rank)} (a : IVec s 32) (c : BitVec 32)
    (bc : S_.BroadcastsInDim s (![] : Fin 0 → Fin s.rank)) (hr : s.ReducesTo axes S_) (hu : 0 < S_.numel)
    (h : Host.reduce IntOp.andi (cmpi .slt a (broadcastInDim s ![] bc (constantI S_ 32 c)))
          (constantI S_ 1 1#1) hr hu ix0 = 1#1) : ∀ e, (a e).toInt < c.toInt := fun e =>
  IntOp.cmpi_slt.1 (Host.reduce_andi_all _ _ hr hu ix0 h e)

/-- The conjunction of two `i1` scalars, read at its one index. -/
theorem andi_apply (x y : IVec S_ 1) (i : S_.Idx) : andi x y i = IntOp.andi (x i) (y i) := rfl

theorem decode (a0 : FVec Ideal S100000x300 .f32) (a1 a2 a3 a4 : IVec S200000 32)
    (a5 : FVec Ideal S6x300 .f32) (a6 : FVec Ideal S300 .f32) (a7 : FVec Ideal S3x300 .f32) (a8 : FVec Ideal S300 .f32)
    (a9 : FVec Ideal S300x600 .f32) (a10 : FVec Ideal S600 .f32) (a11 : FVec Ideal S600x300 .f32) (a12 : FVec Ideal S300 .f32)
    (a13 a14 : FVec Ideal S300 .f32)
    (h : Cert.Pre_finite_inputs.fn (F := Ideal) a0 a1 a2 a3 a4 a5 a6 a7 a8 a9 a10 a11 a12 a13 a14 = (fun _ => 1#1)) :
    IsReal a0 ∧ IsReal a5 ∧ IsReal a6 ∧ IsReal a7 ∧ IsReal a8 ∧ IsReal a9 ∧ IsReal a10 ∧ IsReal a11 ∧ IsReal a12
    ∧ (∀ e, 0 ≤ (a3 e).toInt ∧ (a3 e).toInt < 6) ∧ (∀ e, 0 ≤ (a4 e).toInt ∧ (a4 e).toInt < 3) := by
  have h0 := congrFun h ix0
  simp only [fn, fn_part1, fn_part2, fn_part3, fn_part4, andi_apply, IntOp.andi_eq_one] at h0
  obtain ⟨⟨⟨⟨⟨⟨⟨⟨⟨⟨⟨⟨⟨⟨r0, r5⟩, r6⟩, r7⟩, r8⟩, r9⟩, r10⟩, r11⟩, r12⟩, _⟩, _⟩, g3⟩, l3⟩, g4⟩, l4⟩ := h0
  have z0 : (0#32 : BitVec 32).toInt = 0 := by decide
  have z6 : (6#32 : BitVec 32).toInt = 6 := by decide
  have z3 : (3#32 : BitVec 32).toInt = 3 := by decide
  refine ⟨isReal_of_all a0 _ _ _ r0, isReal_of_all a5 _ _ _ r5, isReal_of_all a6 _ _ _ r6, isReal_of_all a7 _ _ _ r7,
    isReal_of_all a8 _ _ _ r8, isReal_of_all a9 _ _ _ r9, isReal_of_all a10 _ _ _ r10, isReal_of_all a11 _ _ _ r11,
    isReal_of_all a12 _ _ _ r12, fun e => ⟨?_, ?_⟩, fun e => ⟨?_, ?_⟩⟩
  · exact z0 ▸ sge_of_all a3 _ _ _ _ g3 e
  · exact z6 ▸ slt_of_all a3 _ _ _ _ l3 e
  · exact z0 ▸ sge_of_all a4 _ _ _ _ g4 e
  · exact z3 ▸ slt_of_all a4 _ _ _ _ l4 e

end Cert.Bridge.Pre

end
-- ==== Proof.lean ====
/-
  Both programs are a graph-network layer: every edge carries its source node's feature row plus an embedding of its
  two categorical features to its destination node, where the messages are summed; every node's sum goes through a
  two-layer perceptron; and every feature column is normalised over the nodes with its own mean and variance.

  They differ in three places, none of which changes the value over the extended reals on admissible inputs.
  * The edge embedding: the reference adds two looked-up rows and two biases, the kernel looks one row up in the
    eighteen-row table of all such sums. For categories in range (the precondition's added conjuncts) the rows agree,
    addition being commutative and associative.
  * The perceptron: whole-array products on the reference's side, blocks of 2000 rows through the matrix unit on the
    kernel's; a row of a product depends on that row of its left operand only, so both are the same row-by-row function.
  * The variance: the mean of squares minus the squared mean, cut off at zero, against the mean of squared deviations.
    These agree on real numbers, and every entry of the perceptron's output is real because every float input is.
  The normalisation itself is the same function of (features, mean, variance, scale, shift) on both sides.
-/
import proofs.«428974_j8160437862943_3_alg».proof.Defs
import proofs.«428974_j8160437862943_3_alg».proof.Proof.Gen.Kernel.Frame
import proofs.«428974_j8160437862943_3_alg».proof.Proof.Gen.KernelIdeal.Frame
import proofs.«428974_j8160437862943_3_alg».proof.Proof.Gen.ReferenceIdeal
import proofs.«428974_j8160437862943_3_alg».proof.Proof.Gen.Pre_finite_inputs
import proofs.«428974_j8160437862943_3_alg».proof.Proof.KernelRun
import proofs.«428974_j8160437862943_3_alg».proof.Proof.KernelHost
import proofs.«428974_j8160437862943_3_alg».proof.Proof.KernelMlp
import proofs.«428974_j8160437862943_3_alg».proof.Proof.KernelNorm
import proofs.«428974_j8160437862943_3_alg».proof.Proof.RefRun
import proofs.«428974_j8160437862943_3_alg».proof.Proof.RefValue
import proofs.«428974_j8160437862943_3_alg».proof.Proof.EdgeEmb
import proofs.«428974_j8160437862943_3_alg».proof.Proof.Variance
import proofs.«428974_j8160437862943_3_alg».proof.Proof.Reals
import proofs.«428974_j8160437862943_3_alg».proof.Proof.PreDecode

noncomputable section

namespace Cert.Proof

open Idealize.ShloMosaic Idealize.ShloMosaic.TcCoe Idealize.SL.Sem

/-! ## The two programs compute one function of the arguments -/

/-- On inputs the precondition allows, the kernel program's result and the reference's are the same array. -/
theorem result_eq
    (X : FVec Ideal ⟨2, ![100000, 300]⟩ .f32) (src dst ef0 ef1 : IVec ⟨1, ![200000]⟩ 32)
    (W0 : FVec Ideal ⟨2, ![6, 300]⟩ .f32) (B0 : FVec Ideal ⟨1, ![300]⟩ .f32)
    (W1 : FVec Ideal ⟨2, ![3, 300]⟩ .f32) (B1 : FVec Ideal ⟨1, ![300]⟩ .f32)
    (M1 : FVec Ideal ⟨2, ![300, 600]⟩ .f32) (c1 : FVec Ideal ⟨1, ![600]⟩ .f32)
    (M2 : FVec Ideal ⟨2, ![600, 300]⟩ .f32) (c2 : FVec Ideal ⟨1, ![300]⟩ .f32)
    (γ β : FVec Ideal ⟨1, ![300]⟩ .f32)
    (hpre : Cert.Pre_finite_inputs.fn (F := Ideal) X src dst ef0 ef1 W0 B0 W1 B1 M1 c1 M2 c2 γ β = (fun _ => 1#1)) :
    Cert.ReferenceIdeal.RT.out (F := Ideal) X src dst ef0 ef1 W0 B0 W1 B1 M1 c1 M2 c2 γ β = Cert.KernelIdeal.KT.out X src dst ef0 ef1 W0 B0 W1 B1 M1 c1 M2 c2 γ β := by
  obtain ⟨hX, hW0, hB0, hW1, hB1, hM1, hc1, hM2, hc2, h0, h1⟩ := Cert.Bridge.Pre.decode X src dst ef0 ef1 W0 B0 W1 B1 M1 c1 M2 c2 γ β hpre
  -- the edge embeddings agree on categories in range
  have hE : Cert.KernelIdeal.KT.edgeEmb (F := Ideal) ef0 ef1 W0 B0 W1 B1 = Cert.ReferenceIdeal.RT.edgeEmb (F := Ideal) ef0 ef1 W0 B0 W1 B1 :=
    Cert.Bridge.EdgeEmb.edgeEmb_eq ef0 ef1 W0 B0 W1 B1 h0 h1
  -- the aggregation and the mean are the same operations in both programs
  have hagg : ∀ E, Cert.KernelIdeal.KT.agg (F := Ideal) X src dst E = Cert.ReferenceIdeal.RT.agg (F := Ideal) X src dst E := fun _ => rfl
  have hmean : ∀ h, Cert.KernelIdeal.KT.mean (F := Ideal) h = Cert.ReferenceIdeal.RT.mean (F := Ideal) h := fun _ => rfl
  -- every feature is a real number, so the two variances agree
  have hreal : Cert.Spec.IsReal (Cert.Spec.mlp (Cert.ReferenceIdeal.RT.agg (F := Ideal) X src dst (Cert.ReferenceIdeal.RT.edgeEmb (F := Ideal) ef0 ef1 W0 B0 W1 B1)) M1 c1 M2 c2) :=
    Cert.Bridge.Reals.isReal_mlp _ M1 c1 M2 c2
      (Cert.Bridge.Reals.isReal_agg X src dst _ hX (Cert.Bridge.Reals.isReal_edgeEmb ef0 ef1 W0 B0 W1 B1 hW0 hB0 hW1 hB1))
      hM1 hc1 hM2 hc2
  unfold Cert.ReferenceIdeal.RT.out Cert.KernelIdeal.KT.out Cert.KernelIdeal.KT.feats
  rw [Cert.ReferenceIdeal.RefValue.norm_eq, Cert.ReferenceIdeal.RefValue.mlp_eq, hE, hagg, hmean, Cert.Bridge.Variance.var_eq _ hreal]

/-! ## The kernel program's result array -/

open Cert.KernelIdeal Cert.KernelIdeal.Gen in
/-- The last boundary's contents at the result buffer: the second region's blocks cover the array with the normalisation
    of the first region's array, whose blocks cover it with the perceptron of the aggregated messages; mean and variance
    are the host stretch between the regions. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    W6 m ρ c (Proc.devRef .tc main_v52) = Cert.KernelIdeal.KT.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := by
  have h0 : W4 m ρ c (Proc.devRef .tc main_v36) = Cert.Spec.mlp
      (Cert.KernelIdeal.KT.agg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.KT.edgeEmb (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) :=
    (W4_arr m ρ c 5).trans (Cert.KernelIdeal.KMlp.arr_mlp (V3 m ρ) c _ _ _ _ _ (Cert.KernelIdeal.KHost.V3_agg m ρ c) (Cert.KernelIdeal.KHost.V3_M1 m ρ c)
      (Cert.KernelIdeal.KHost.V3_c1 m ρ c) (Cert.KernelIdeal.KHost.V3_M2 m ρ c) (Cert.KernelIdeal.KHost.V3_c2 m ρ c))
  have h1 := (W6_arr m ρ c 5).trans (Cert.KernelIdeal.KNorm.arr_bn (V5 m ρ) c _ _ _ _ _ (Cert.KernelIdeal.KHost.V5_h m ρ c) (Cert.KernelIdeal.KHost.V5_mean m ρ c)
      (Cert.KernelIdeal.KHost.V5_var m ρ c) (Cert.KernelIdeal.KHost.V5_gamma m ρ c) (Cert.KernelIdeal.KHost.V5_beta m ρ c))
  rw [h0] at h1
  exact h1

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

/-- Both runs end with the result buffer at one function of the arguments, which agree. -/
theorem algebraic : Cert.algebraic_KernelIdeal_ReferenceIdeal := by
  intro m ρ m' ρ' hpre hagree
  refine ⟨fun c => Cert.KernelIdeal.KT.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun _ h c => ⟨(h c).1.trans (kernel_value m ρ c), (h c).2⟩)
      (Cert.KernelIdeal.GenRun.run_value (F := Ideal) m ρ)
  · refine (θ_run Cert.ReferenceIdeal.defs _ _).mono (fun _ h c => ⟨(h c).1.trans ?_, (h c).2⟩) (Cert.ReferenceIdeal.RefRun.run (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14]
    exact result_eq _ _ _ _ _ _ _ _ _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
